-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S5x16x262144 : Shape := ⟨3, ![5, 16, 262144]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel

variable [Facts]

def fn {F : FTy → Type} [FloatOps F] (main_arg0 : FVec F S16x1x512x512 .f32) (main_arg1 : FVec F S16x1x512x512 .f32) (main_arg2 : IVec S5x16x262144 32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x1x512x512 .f32 := Host.absf main_arg1
  let main_cst_0 : FVec F S_ .f32 := constant S_ .f32 0x7F800000#32
  let main_v5 : FVec F S16x1x512x512 .f32 := broadcastInDim S16x1x512x512 ![] bcast_S_S16x1x512x512 main_cst_0
  let main_v6 : IVec S16x1x512x512 1 := cmpf .olt main_v4 main_v5
  let main_c_1 : IVec S_ 1 := constantI S_ 1 1#1
  let main_v7 : IVec S_ 1 := (fun x v => Host.reduce IntOp.andi x v reducesTo_S16x1x512x512_S_d0_1_2_3 h_S_) main_v6 main_c_1
  let main_v8 : IVec S_ 1 := andi main_v3 main_v7
  main_v8
-- ==== Kernel.lean ====
abbrev S16x1x512x512 : Shape := ⟨4, ![16, 1, 512, 512]⟩
abbrev S5x16x262144 : Shape := ⟨3, ![5, 16, 262144]⟩
abbrev S16x262144 : Shape := ⟨2, ![16, 262144]⟩
abbrev S1x16x262144 : Shape := ⟨3, ![1, 16, 262144]⟩
abbrev S_ : Shape := ⟨0, ![]⟩
abbrev S5x16x262144x1 : Shape := ⟨4, ![5, 16, 262144, 1]⟩
abbrev S1 : Shape := ⟨1, ![1]⟩
abbrev S1x1x1x1 : Shape := ⟨4, ![1, 1, 1, 1]⟩
abbrev S2x1x1 : Shape := ⟨3, ![2, 1, 1]⟩
abbrev S8x8192 : Shape := ⟨2, ![8, 8192]⟩
abbrev S5x8x8192 : Shape := ⟨3, ![5, 8, 8192]⟩
abbrev S1x1x1 : Shape := ⟨3, ![1, 1, 1]⟩
abbrev S1x1 : Shape := ⟨2, ![1, 1]⟩
abbrev S1x8x8192 : Shape := ⟨3, ![1, 8, 8192]⟩

abbrev nBuf : Space → Nat
  | .hbm => 58
  | .vmem => 11
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S5x16x262144, .i32⟩
  | .hbm, ⟨3, _⟩ => ⟨S16x262144, .f32⟩
  | .hbm, ⟨4, _⟩ => ⟨S16x262144, .f32⟩
  | .hbm, ⟨5, _⟩ => ⟨S1x16x262144, .f32⟩
  | .hbm, ⟨6, _⟩ => ⟨S_, .i32⟩
  | .hbm, ⟨7, _⟩ => ⟨S5x16x262144, .i32⟩
  | .hbm, ⟨8, _⟩ => ⟨S5x16x262144, .i1⟩
  | .hbm, ⟨9, _⟩ => ⟨S_, .i32⟩
  | .hbm, ⟨10, _⟩ => ⟨S5x16x262144, .i32⟩
  | .hbm, ⟨11, _⟩ => ⟨S5x16x262144, .i32⟩
  | .hbm, ⟨12, _⟩ => ⟨S5x16x262144, .i32⟩
  | .hbm, ⟨13, _⟩ => ⟨S5x16x262144x1, .i32⟩
  | .hbm, ⟨14, _⟩ => ⟨S16x262144, .f32⟩
  | .hbm, ⟨15, _⟩ => ⟨S1, .i32⟩
  | .hbm, ⟨16, _⟩ => ⟨S_, .i32⟩
  | .hbm, ⟨17, _⟩ => ⟨S5x16x262144x1, .i32⟩
  | .hbm, ⟨18, _⟩ => ⟨S5x16x262144x1, .i1⟩
  | .hbm, ⟨19, _⟩ => ⟨S1x1x1x1, .i32⟩
  | .hbm, ⟨20, _⟩ => ⟨S5x16x262144x1, .i32⟩
  | .hbm, ⟨21, _⟩ => ⟨S5x16x262144x1, .i1⟩
  | .hbm, ⟨22, _⟩ => ⟨S5x16x262144x1, .i1⟩
  | .hbm, ⟨23, _⟩ => ⟨S_, .i1⟩
  | .hbm, ⟨24, _⟩ => ⟨S5x16x262144, .i1⟩
  | .hbm, ⟨25, _⟩ => ⟨S5x16x262144, .f32⟩
  | .hbm, ⟨26, _⟩ => ⟨S_, .f32⟩
  | .hbm, ⟨27, _⟩ => ⟨S5x16x262144, .f32⟩
  | .hbm, ⟨28, _⟩ => ⟨S5x16x262144, .f32⟩
  | .hbm, ⟨29, _⟩ => ⟨S1x16x262144, .f32⟩
  | .hbm, ⟨30, _⟩ => ⟨S_, .i32⟩
  | .hbm, ⟨31, _⟩ => ⟨S5x16x262144, .i32⟩
  | .hbm, ⟨32, _⟩ => ⟨S5x16x262144, .i1⟩
  | .hbm, ⟨33, _⟩ => ⟨S_, .i32⟩
  | .hbm, ⟨34, _⟩ => ⟨S5x16x262144, .i32⟩
  | .hbm, ⟨35, _⟩ => ⟨S5x16x262144, .i32⟩
  | .hbm, ⟨36, _⟩ => ⟨S5x16x262144, .i32⟩
  | .hbm, ⟨37, _⟩ => ⟨S5x16x262144x1, .i32⟩
  | .hbm, ⟨38, _⟩ => ⟨S16x262144, .f32⟩
  | .hbm, ⟨39, _⟩ => ⟨S1, .i32⟩
  | .hbm, ⟨40, _⟩ => ⟨S_, .i32⟩
  | .hbm, ⟨41, _⟩ => ⟨S5x16x262144x1, .i32⟩
  | .hbm, ⟨42, _⟩ => ⟨S5x16x262144x1, .i1⟩
  | .hbm, ⟨43, _⟩ => ⟨S1x1x1x1, .i32⟩
  | .hbm, ⟨44, _⟩ => ⟨S5x16x262144x1, .i32⟩
  | .hbm, ⟨45, _⟩ => ⟨S5x16x262144x1, .i1⟩
  | .hbm, ⟨46, _⟩ => ⟨S5x16x262144x1, .i1⟩
  | .hbm, ⟨47, _⟩ => ⟨S_, .i1⟩
  | .hbm, ⟨48, _⟩ => ⟨S5x16x262144, .i1⟩
  | .hbm, ⟨49, _⟩ => ⟨S5x16x262144, .f32⟩
  | .hbm, ⟨50, _⟩ => ⟨S_, .f32⟩
  | .hbm, ⟨51, _⟩ => ⟨S5x16x262144, .f32⟩
  | .hbm, ⟨52, _⟩ => ⟨S5x16x262144, .f32⟩
  | .hbm, ⟨53, _⟩ => ⟨S2x1x1, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .local _ .vmem, ⟨0, _⟩ => ⟨S8x8192, .f32⟩
  | .local _ .vmem, ⟨1, _⟩ => ⟨S8x8192, .f32⟩
  | .local _ .vmem, ⟨2, _⟩ => ⟨S8x8192, .f32⟩
  | .local _ .vmem, ⟨3, _⟩ => ⟨S8x8192, .f32⟩
  | .local _ .vmem, ⟨4, _⟩ => ⟨S5x8x8192, .f32⟩
  | .local _ .vmem, ⟨5, _⟩ => ⟨S5x8x8192, .f32⟩
  | .local _ .vmem, ⟨6, _⟩ => ⟨S5x8x8192, .f32⟩
  | .local _ .vmem, ⟨7, _⟩ => ⟨S5x8x8192, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_c_1 : Ref sig .tc := ⟨.hbm, 15, rfl⟩
abbrev main_call0_c_2 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_v12 : Ref sig .tc := ⟨.hbm, 22, rfl⟩
abbrev main_call0_c_3 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_c_1 : Ref sig .tc := ⟨.hbm, 39, rfl⟩
abbrev main_call1_c_2 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_c_3 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩
abbrev main_cst_0 : Ref sig .tc := ⟨.hbm, 56, rfl⟩
abbrev main_v8 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v109 : BitVec 1 := Scalar.cmpi .eq arg1 c31_i32
  let v110 : BitVec 32 := Scalar.extui v109
  let c0_i32_21 : BitVec 32 := 0#32
  let v111 : BitVec 1 := Scalar.cmpi .ne v110 c0_i32_21
  v111

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S5x8x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S5x8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16x1x512x512_S16x262144 : S16x1x512x512.ShapeCasts S16x262144
  bcast_S16x262144_S1x16x262144_1_2 : S16x262144.BroadcastsInDim S1x16x262144 (![1, 2] : Fin 2 → Fin S1x16x262144.rank)
  bcast_S_S5x16x262144 : S_.BroadcastsInDim S5x16x262144 (![] : Fin 0 → Fin S5x16x262144.rank)
  shapeCasts_S5x16x262144_S5x16x262144x1 : S5x16x262144.ShapeCasts S5x16x262144x1
  shapeCasts_S1x16x262144_S16x262144 : S1x16x262144.ShapeCasts S16x262144
  bcast_S_S5x16x262144x1 : S_.BroadcastsInDim S5x16x262144x1 (![] : Fin 0 → Fin S5x16x262144x1.rank)
  bcast_S1_S1x1x1x1_3 : S1.BroadcastsInDim S1x1x1x1 (![3] : Fin 1 → Fin S1x1x1x1.rank)
  bcast_S1x1x1x1_S5x16x262144x1_0_1_2_3 : S1x1x1x1.BroadcastsInDim S5x16x262144x1 (![0, 1, 2, 3] : Fin 4 → Fin S5x16x262144x1.rank)
  reducesTo_S5x16x262144x1_S5x16x262144_d3 : S5x16x262144x1.ReducesTo [3] S5x16x262144
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S8x8192_S8x8192_0_0 : ∀ a, (![0, 0] : Fin 2 → Nat) a + S8x8192.size a ≤ S8x8192.size a
  h_S8x8192 : 0 < S8x8192.numel
  shapeCasts_S8x8192_S8x8192 : S8x8192.ShapeCasts S8x8192
  inb_S5x8x8192_S5x8x8192_0_0_0 : ∀ a, (![0, 0, 0] : Fin 3 → Nat) a + S5x8x8192.size a ≤ S5x8x8192.size a
  h_S5x8x8192 : 0 < S5x8x8192.numel
  shapeCasts_S5x8x8192_S5x8x8192 : S5x8x8192.ShapeCasts S5x8x8192
  slices_S5x8x8192_o0_0_0_S1x8x8192 : S5x8x8192.Slices ![0, 0, 0] S1x8x8192
  shapeCasts_S1x8x8192_S8x8192 : S1x8x8192.ShapeCasts S8x8192
  slices_S5x8x8192_o1_0_0_S1x8x8192 : S5x8x8192.Slices ![1, 0, 0] S1x8x8192
  slices_S5x8x8192_o2_0_0_S1x8x8192 : S5x8x8192.Slices ![2, 0, 0] S1x8x8192
  slices_S5x8x8192_o3_0_0_S1x8x8192 : S5x8x8192.Slices ![3, 0, 0] S1x8x8192
  slices_S5x8x8192_o4_0_0_S1x8x8192 : S5x8x8192.Slices ![4, 0, 0] S1x8x8192
  shapeCasts_S8x8192_S1x8x8192 : S8x8192.ShapeCasts S1x8x8192
  reduces_S1x8x8192_S1 : S1x8x8192.Reduces [1, 2] S1
  shapeCasts_S1_S1x1x1 : S1.ShapeCasts S1x1x1
  inpos_S1x1x1_p0_0_0 : ∀ a, (![0, 0, 0] : Fin 3 → Nat) a < S1x1x1.size a
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S2x1x1_S_d0_1_2 : S2x1x1.ReducesTo [0, 1, 2] S_
  gather_S16x262144_S5x16x262144x1_S5x16x262144_n_1_0_1_1_3_11_wf : GatherDims.WF S16x262144 S5x16x262144x1 S5x16x262144 [] [1] [0] [1] [1] 3 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x8192.size a ≤ S16x262144.size a
  hwx0_0 : ∀ i : grid0.Coords, EltTy.bits .f32 = 32 ∨ (Rect.block (s := S16x262144) S8x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x8192.size a ≤ S16x262144.size a
  hwx0_1 : ∀ i : grid0.Coords, EltTy.bits .f32 = 32 ∨ (Rect.block (s := S16x262144) S8x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5x8x8192.size a ≤ S5x16x262144.size a
  hwx0_2 : ∀ i : grid0.Coords, EltTy.bits .f32 = 32 ∨ (Rect.block (s := S5x16x262144) S5x8x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5x8x8192.size a ≤ S5x16x262144.size a
  hwx0_3 : ∀ i : grid0.Coords, EltTy.bits .f32 = 32 ∨ (Rect.block (s := S5x16x262144) S5x8x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)

variable [Facts₀]

def gather_S16x262144_S5x16x262144x1_S5x16x262144_n_1_0_1_1_3_11 : GatherDims S16x262144 S5x16x262144x1 S5x16x262144 where
  offsetDims := []
  collapsedSliceDims := [1]
  operandBatchingDims := [0]
  startIndicesBatchingDims := [1]
  startIndexMap := [1]
  indexVectorDim := 3
  sliceSizes := ![1, 1]
  wf := gather_S16x262144_S5x16x262144x1_S5x16x262144_n_1_0_1_1_3_11_wf

abbrev win0_0 : Pipeline.Window sig grid0 :=
  Pipeline.Window.ofSpec (Memref.whole main_v0) S8x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S5x8x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5x8x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16x1x512x512 : Shape := ⟨4, ![16, 1, 512, 512]⟩
abbrev S5x16x262144 : Shape := ⟨3, ![5, 16, 262144]⟩
abbrev S16x262144 : Shape := ⟨2, ![16, 262144]⟩
abbrev S1x16x262144 : Shape := ⟨3, ![1, 16, 262144]⟩
abbrev S_ : Shape := ⟨0, ![]⟩
abbrev S5x16x262144x1 : Shape := ⟨4, ![5, 16, 262144, 1]⟩
abbrev S1 : Shape := ⟨1, ![1]⟩
abbrev S1x1x1x1 : Shape := ⟨4, ![1, 1, 1, 1]⟩
abbrev S16x262144x5 : Shape := ⟨3, ![16, 262144, 5]⟩
abbrev S16x262144x1 : Shape := ⟨3, ![16, 262144, 1]⟩

abbrev nBuf : Space → Nat
  | .hbm => 93
  | .vmem => 0
  | .smem => 0
  | _ => 0

abbrev bufTy : (tb : Table) → Fin (tcTables nBuf tb) → BufTy
  | .hbm, ⟨0, _⟩ => ⟨S16x1x512x512, .f32⟩
  | .hbm, ⟨1, _⟩ => ⟨S16x1x512x512, .f32⟩
  | .hbm, ⟨2, _⟩ => ⟨S5x16x262144, .i32⟩
  | .hbm, ⟨3, _⟩ => ⟨S16x262144, .f32⟩
  | .hbm, ⟨4, _⟩ => ⟨S1x16x262144, .f32⟩
  | .hbm, ⟨5, _⟩ => ⟨S_, .i32⟩
  | .hbm, ⟨6, _⟩ => ⟨S5x16x262144, .i32⟩
  | .hbm, ⟨7, _⟩ => ⟨S5x16x262144, .i1⟩
  | .hbm, ⟨8, _⟩ => ⟨S_, .i32⟩
  | .hbm, ⟨9, _⟩ => ⟨S5x16x262144, .i32⟩
  | .hbm, ⟨10, _⟩ => ⟨S5x16x262144, .i32⟩
  | .hbm, ⟨11, _⟩ => ⟨S5x16x262144, .i32⟩
  | .hbm, ⟨12, _⟩ => ⟨S5x16x262144x1, .i32⟩
  | .hbm, ⟨13, _⟩ => ⟨S16x262144, .f32⟩
  | .hbm, ⟨14, _⟩ => ⟨S1, .i32⟩
  | .hbm, ⟨15, _⟩ => ⟨S_, .i32⟩
  | .hbm, ⟨16, _⟩ => ⟨S5x16x262144x1, .i32⟩
  | .hbm, ⟨17, _⟩ => ⟨S5x16x262144x1, .i1⟩
  | .hbm, ⟨18, _⟩ => ⟨S1x1x1x1, .i32⟩
  | .hbm, ⟨19, _⟩ => ⟨S5x16x262144x1, .i32⟩
  | .hbm, ⟨20, _⟩ => ⟨S5x16x262144x1, .i1⟩
  | .hbm, ⟨21, _⟩ => ⟨S5x16x262144x1, .i1⟩
  | .hbm, ⟨22, _⟩ => ⟨S_, .i1⟩
  | .hbm, ⟨23, _⟩ => ⟨S5x16x262144, .i1⟩
  | .hbm, ⟨24, _⟩ => ⟨S5x16x262144, .f32⟩
  | .hbm, ⟨25, _⟩ => ⟨S_, .f32⟩
  | .hbm, ⟨26, _⟩ => ⟨S5x16x262144, .f32⟩
  | .hbm, ⟨27, _⟩ => ⟨S5x16x262144, .f32⟩
  | .hbm, ⟨28, _⟩ => ⟨S1x16x262144, .f32⟩
  | .hbm, ⟨29, _⟩ => ⟨S5x16x262144, .f32⟩
  | .hbm, ⟨30, _⟩ => ⟨S5x16x262144, .f32⟩
  | .hbm, ⟨31, _⟩ => ⟨S16x262144x5, .f32⟩
  | .hbm, ⟨32, _⟩ => ⟨S16x262144x5, .f32⟩
  | .hbm, ⟨33, _⟩ => ⟨S_, .f32⟩
  | .hbm, ⟨34, _⟩ => ⟨S16x262144, .f32⟩
  | .hbm, ⟨35, _⟩ => ⟨S16x262144x1, .f32⟩
  | .hbm, ⟨36, _⟩ => ⟨S16x262144x1, .f32⟩
  | .hbm, ⟨37, _⟩ => ⟨S_, .f32⟩
  | .hbm, ⟨38, _⟩ => ⟨S16x262144x1, .f32⟩
  | .hbm, ⟨39, _⟩ => ⟨S16x262144x1, .i1⟩
  | .hbm, ⟨40, _⟩ => ⟨S_, .f32⟩
  | .hbm, ⟨41, _⟩ => ⟨S16x262144x1, .f32⟩
  | .hbm, ⟨42, _⟩ => ⟨S16x262144x1, .f32⟩
  | .hbm, ⟨43, _⟩ => ⟨S16x262144x5, .f32⟩
  | .hbm, ⟨44, _⟩ => ⟨S16x262144x5, .f32⟩
  | .hbm, ⟨45, _⟩ => ⟨S16x262144, .f32⟩
  | .hbm, ⟨46, _⟩ => ⟨S1x16x262144, .f32⟩
  | .hbm, ⟨47, _⟩ => ⟨S_, .i32⟩
  | .hbm, ⟨48, _⟩ => ⟨S5x16x262144, .i32⟩
  | .hbm, ⟨49, _⟩ => ⟨S5x16x262144, .i1⟩
  | .hbm, ⟨50, _⟩ => ⟨S_, .i32⟩
  | .hbm, ⟨51, _⟩ => ⟨S5x16x262144, .i32⟩
  | .hbm, ⟨52, _⟩ => ⟨S5x16x262144, .i32⟩
  | .hbm, ⟨53, _⟩ => ⟨S5x16x262144, .i32⟩
  | .hbm, ⟨54, _⟩ => ⟨S5x16x262144x1, .i32⟩
  | .hbm, ⟨55, _⟩ => ⟨S16x262144, .f32⟩
  | .hbm, ⟨56, _⟩ => ⟨S1, .i32⟩
  | .hbm, ⟨57, _⟩ => ⟨S_, .i32⟩
  | .hbm, ⟨58, _⟩ => ⟨S5x16x262144x1, .i32⟩
  | .hbm, ⟨59, _⟩ => ⟨S5x16x262144x1, .i1⟩
  | .hbm, ⟨60, _⟩ => ⟨S1x1x1x1, .i32⟩
  | .hbm, ⟨61, _⟩ => ⟨S5x16x262144x1, .i32⟩
  | .hbm, ⟨62, _⟩ => ⟨S5x16x262144x1, .i1⟩
  | .hbm, ⟨63, _⟩ => ⟨S5x16x262144x1, .i1⟩
  | .hbm, ⟨64, _⟩ => ⟨S_, .i1⟩
  | .hbm, ⟨65, _⟩ => ⟨S5x16x262144, .i1⟩
  | .hbm, ⟨66, _⟩ => ⟨S5x16x262144, .f32⟩
  | .hbm, ⟨67, _⟩ => ⟨S_, .f32⟩
  | .hbm, ⟨68, _⟩ => ⟨S5x16x262144, .f32⟩
  | .hbm, ⟨69, _⟩ => ⟨S5x16x262144, .f32⟩
  | .hbm, ⟨70, _⟩ => ⟨S1x16x262144, .f32⟩
  | .hbm, ⟨71, _⟩ => ⟨S5x16x262144, .f32⟩
  | .hbm, ⟨72, _⟩ => ⟨S5x16x262144, .f32⟩
  | .hbm, ⟨73, _⟩ => ⟨S16x262144x5, .f32⟩
  | .hbm, ⟨74, _⟩ => ⟨S16x262144x5, .f32⟩
  | .hbm, ⟨75, _⟩ => ⟨S_, .f32⟩
  | .hbm, ⟨76, _⟩ => ⟨S16x262144, .f32⟩
  | .hbm, ⟨77, _⟩ => ⟨S16x262144x1, .f32⟩
  | .hbm, ⟨78, _⟩ => ⟨S16x262144x1, .f32⟩
  | .hbm, ⟨79, _⟩ => ⟨S_, .f32⟩
  | .hbm, ⟨80, _⟩ => ⟨S16x262144x1, .f32⟩
  | .hbm, ⟨81, _⟩ => ⟨S16x262144x1, .i1⟩
  | .hbm, ⟨82, _⟩ => ⟨S_, .f32⟩
  | .hbm, ⟨83, _⟩ => ⟨S16x262144x1, .f32⟩
  | .hbm, ⟨84, _⟩ => ⟨S16x262144x1, .f32⟩
  | .hbm, ⟨85, _⟩ => ⟨S16x262144x5, .f32⟩
  | .hbm, ⟨86, _⟩ => ⟨S16x262144x5, .f32⟩
  | .hbm, ⟨87, _⟩ => ⟨S16x262144x5, .f32⟩
  | .hbm, ⟨88, _⟩ => ⟨S16x262144x5, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_c_1 : Ref sig .tc := ⟨.hbm, 14, rfl⟩
abbrev main_call0_c_2 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_c_3 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v7 : Ref sig .tc := ⟨.hbm, 36, rfl⟩
abbrev main_cst : Ref sig .tc := ⟨.hbm, 37, rfl⟩
abbrev main_v8 : Ref sig .tc := ⟨.hbm, 38, rfl⟩
abbrev main_v9 : Ref sig .tc := ⟨.hbm, 39, rfl⟩
abbrev main_cst_0 : Ref sig .tc := ⟨.hbm, 40, rfl⟩
abbrev main_call2_v0 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_call3_c : Ref sig .tc := ⟨.hbm, 47, rfl⟩
abbrev main_call3_v0 : Ref sig .tc := ⟨.hbm, 48, rfl⟩
abbrev main_call3_v1 : Ref sig .tc := ⟨.hbm, 49, rfl⟩
abbrev main_call3_c_0 : Ref sig .tc := ⟨.hbm, 50, rfl⟩
abbrev main_call3_v2 : Ref sig .tc := ⟨.hbm, 51, rfl⟩
abbrev main_call3_v3 : Ref sig .tc := ⟨.hbm, 52, rfl⟩
abbrev main_call3_v4 : Ref sig .tc := ⟨.hbm, 53, rfl⟩
abbrev main_call3_v5 : Ref sig .tc := ⟨.hbm, 54, rfl⟩
abbrev main_call3_v6 : Ref sig .tc := ⟨.hbm, 55, rfl⟩
abbrev main_call3_c_1 : Ref sig .tc := ⟨.hbm, 56, rfl⟩
abbrev main_call3_c_2 : Ref sig .tc := ⟨.hbm, 57, rfl⟩
abbrev main_call3_v7 : Ref sig .tc := ⟨.hbm, 58, rfl⟩
abbrev main_call3_v8 : Ref sig .tc := ⟨.hbm, 59, rfl⟩
abbrev main_call3_v9 : Ref sig .tc := ⟨.hbm, 60, rfl⟩
abbrev main_call3_v10 : Ref sig .tc := ⟨.hbm, 61, rfl⟩
abbrev main_call3_v11 : Ref sig .tc := ⟨.hbm, 62, rfl⟩
abbrev main_call3_v12 : Ref sig .tc := ⟨.hbm, 63, rfl⟩
abbrev main_call3_c_3 : Ref sig .tc := ⟨.hbm, 64, rfl⟩
abbrev main_call3_v13 : Ref sig .tc := ⟨.hbm, 65, rfl⟩
abbrev main_call3_v14 : Ref sig .tc := ⟨.hbm, 66, rfl⟩
abbrev main_call3_cst : Ref sig .tc := ⟨.hbm, 67, rfl⟩
abbrev main_call3_v15 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_call4_v0 : Ref sig .tc := ⟨.hbm, 74, rfl⟩
abbrev main_call4_cst : Ref sig .tc := ⟨.hbm, 75, rfl⟩
abbrev main_call4_v1 : Ref sig .tc := ⟨.hbm, 76, rfl⟩
abbrev main_call4_v2 : Ref sig .tc := ⟨.hbm, 77, rfl⟩
abbrev main_v20 : Ref sig .tc := ⟨.hbm, 78, rfl⟩
abbrev main_cst_1 : Ref sig .tc := ⟨.hbm, 79, rfl⟩
abbrev main_v21 : Ref sig .tc := ⟨.hbm, 80, rfl⟩
abbrev main_v22 : Ref sig .tc := ⟨.hbm, 81, rfl⟩
abbrev main_cst_2 : Ref sig .tc := ⟨.hbm, 82, rfl⟩
abbrev main_call5_v0 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_3 : Ref sig .tc := ⟨.hbm, 89, rfl⟩
abbrev main_v28 : Ref sig .tc := ⟨.hbm, 90, rfl⟩
abbrev main_cst_4 : Ref sig .tc := ⟨.hbm, 91, rfl⟩
abbrev main_v29 : Ref sig .tc := ⟨.hbm, 92, rfl⟩

abbrev nD : Nat := 1
abbrev τ : Topo := Topo.v7x

variable {F : FTy → Type} [FloatOps F]

class Facts₀ : Prop where
  shapeCasts_S16x1x512x512_S16x262144 : S16x1x512x512.ShapeCasts S16x262144
  bcast_S16x262144_S1x16x262144_1_2 : S16x262144.BroadcastsInDim S1x16x262144 (![1, 2] : Fin 2 → Fin S1x16x262144.rank)
  bcast_S_S5x16x262144 : S_.BroadcastsInDim S5x16x262144 (![] : Fin 0 → Fin S5x16x262144.rank)
  shapeCasts_S5x16x262144_S5x16x262144x1 : S5x16x262144.ShapeCasts S5x16x262144x1
  shapeCasts_S1x16x262144_S16x262144 : S1x16x262144.ShapeCasts S16x262144
  bcast_S_S5x16x262144x1 : S_.BroadcastsInDim S5x16x262144x1 (![] : Fin 0 → Fin S5x16x262144x1.rank)
  bcast_S1_S1x1x1x1_3 : S1.BroadcastsInDim S1x1x1x1 (![3] : Fin 1 → Fin S1x1x1x1.rank)
  bcast_S1x1x1x1_S5x16x262144x1_0_1_2_3 : S1x1x1x1.BroadcastsInDim S5x16x262144x1 (![0, 1, 2, 3] : Fin 4 → Fin S5x16x262144x1.rank)
  reducesTo_S5x16x262144x1_S5x16x262144_d3 : S5x16x262144x1.ReducesTo [3] S5x16x262144
  h_S_ : 0 < S_.numel
  bcast_S1x16x262144_S5x16x262144_0_1_2 : S1x16x262144.BroadcastsInDim S5x16x262144 (![0, 1, 2] : Fin 3 → Fin S5x16x262144.rank)
  transposes_S5x16x262144_S16x262144x5_1_2_0 : S5x16x262144.Transposes [1, 2, 0] S16x262144x5
  reducesTo_S16x262144x5_S16x262144_d2 : S16x262144x5.ReducesTo [2] S16x262144
  bcast_S16x262144_S16x262144x1_0_1 : S16x262144.BroadcastsInDim S16x262144x1 (![0, 1] : Fin 2 → Fin S16x262144x1.rank)
  bcast_S_S16x262144x1 : S_.BroadcastsInDim S16x262144x1 (![] : Fin 0 → Fin S16x262144x1.rank)
  bcast_S16x262144x1_S16x262144x5_0_1_2 : S16x262144x1.BroadcastsInDim S16x262144x5 (![0, 1, 2] : Fin 3 → Fin S16x262144x5.rank)
  reducesTo_S16x262144x5_S_d0_1_2 : S16x262144x5.ReducesTo [0, 1, 2] S_
  gather_S16x262144_S5x16x262144x1_S5x16x262144_n_1_0_1_1_3_11_wf : GatherDims.WF S16x262144 S5x16x262144x1 S5x16x262144 [] [1] [0] [1] [1] 3 ![1, 1]

variable [Facts₀]

def gather_S16x262144_S5x16x262144x1_S5x16x262144_n_1_0_1_1_3_11 : GatherDims S16x262144 S5x16x262144x1 S5x16x262144 where
  offsetDims := []
  collapsedSliceDims := [1]
  operandBatchingDims := [0]
  startIndicesBatchingDims := [1]
  startIndexMap := [1]
  indexVectorDim := 3
  sliceSizes := ![1, 1]
  wf := gather_S16x262144_S5x16x262144x1_S5x16x262144_n_1_0_1_1_3_11_wf

class Facts : Prop extends Facts₀ where

variable [Facts]
-- ==== Proof.Spec.lean ====
/-
  The loss as mathematics, with no program in sight.

  For one position (b, n) of the flattened maps there are two scalars p, q (prediction and ground truth there) and two
  5-vectors gp, gq (their values at the five permuted positions).  The five differences p - gp r are divided by their
  Euclidean norm (1 in place of a zero norm), likewise for q, and the position contributes the sum over r of the
  absolute difference of the two normalised entries: `posTerm`.  The loss is the sum of `posTerm` over all 16 × 262144
  positions, divided by their number times five.

  Two facts about sums are proved here: a left-nested sum of five terms started from zero is the sum over `Fin 5`,
  and a sum over `Fin N` with N = a · b is the double sum over a blocks of b consecutive indices; from the second, the
  sum over the 16 × 262144 positions regrouped as 2 × 32 tiles of 8 × 8192 positions.
-/
import Idealize.ShloMosaic.Lib.ValueIdx
import Idealize.ShloMosaic.PureOps.Ideal.Laws

noncomputable section

open scoped BigOperators

namespace Cert.RdLoss

open Idealize.ShloMosaic Idealize.ShloMosaic.ValueIdx

/-- The Euclidean norm of five extended reals, as both programs compute it — the square root of the sum of squares —
    with the word 1.0 where that root compares equal to zero. -/
def guardedNorm (d : Fin 5 → EReal) : EReal :=
  Scalar.select (Ideal.cmp .oeq (Ideal.sqrt (∑ r : Fin 5, d r * d r)) 0)
    (Ideal.ofBits .f32 0x3F800000#32) (Ideal.sqrt (∑ r : Fin 5, d r * d r))

/-- One entry of the loss from the two difference vectors: the absolute difference of their r-th normalised entries. -/
def entryTerm (dp dq : Fin 5 → EReal) (r : Fin 5) : EReal :=
  max (Ideal.div (dp r) (guardedNorm dp) - Ideal.div (dq r) (guardedNorm dq))
    (-(Ideal.div (dp r) (guardedNorm dp) - Ideal.div (dq r) (guardedNorm dq)))

/-- What one position contributes, from its two difference vectors: the sum of its five entries. -/
def posTermD (dp dq : Fin 5 → EReal) : EReal := ∑ r : Fin 5, entryTerm dp dq r

/-- What one position contributes, from its two scalars and their five permuted partners each. -/
def posTerm (p q : EReal) (gp gq : Fin 5 → EReal) : EReal := posTermD (fun r => p - gp r) (fun r => q - gq r)

/-- A left-nested sum of five terms started from zero is the sum over `Fin 5`. -/
theorem nested_five {M : Type*} [AddCommMonoid M] (f : Fin 5 → M) :
    ((((0 + f 0) + f 1) + f 2) + f 3) + f 4 = ∑ r : Fin 5, f r := by
  rw [Fin.sum_univ_five, zero_add]

/-! The same three quantities written as a program that adds one term at a time to a zero word computes them. -/

/-- The guarded norm with the sum of squares accumulated term by term from the zero word. -/
def nestedNorm (d : Fin 5 → EReal) : EReal :=
  Scalar.select
    (Ideal.cmp .oeq (Ideal.sqrt (((((Ideal.ofBits .f32 0x00000000#32 + d 0 * d 0) + d 1 * d 1) + d 2 * d 2) + d 3 * d 3) + d 4 * d 4))
      (Ideal.ofBits .f32 0x00000000#32))
    (Ideal.ofBits .f32 0x3F800000#32)
    (Ideal.sqrt (((((Ideal.ofBits .f32 0x00000000#32 + d 0 * d 0) + d 1 * d 1) + d 2 * d 2) + d 3 * d 3) + d 4 * d 4))

/-- The absolute difference of two quotients. -/
def absDiff (a b np nq : EReal) : EReal := max (Ideal.div a np - Ideal.div b nq) (-(Ideal.div a np - Ideal.div b nq))

/-- One entry over the term-by-term norms. -/
def nestedEntry (dp dq : Fin 5 → EReal) (r : Fin 5) : EReal := absDiff (dp r) (dq r) (nestedNorm dp) (nestedNorm dq)

/-- A position's five entries accumulated term by term from the zero word. -/
def nestedPos (dp dq : Fin 5 → EReal) : EReal :=
  ((((Ideal.ofBits .f32 0x00000000#32 + nestedEntry dp dq 0) + nestedEntry dp dq 1) + nestedEntry dp dq 2)
    + nestedEntry dp dq 3) + nestedEntry dp dq 4

theorem nestedNorm_eq (d : Fin 5 → EReal) : nestedNorm d = guardedNorm d := by
  unfold nestedNorm guardedNorm
  rw [Ideal.ofBits_zero_f32, nested_five fun r => d r * d r]

theorem nestedPos_eq (dp dq : Fin 5 → EReal) : nestedPos dp dq = posTermD dp dq := by
  unfold nestedPos posTermD
  rw [Ideal.ofBits_zero_f32, nested_five]
  refine Finset.sum_congr rfl fun r _ => ?_
  unfold nestedEntry entryTerm absDiff
  rw [nestedNorm_eq, nestedNorm_eq]

/-- The five entries over given norms, added one at a time to the zero word, are the position's term once the norms
    are the term-by-term norms of the two difference vectors. -/
theorem nested_total (dp dq : Fin 5 → EReal) (np nq : EReal) (hp : np = nestedNorm dp) (hq : nq = nestedNorm dq) :
    ((((Ideal.ofBits .f32 0x00000000#32 + absDiff (dp 0) (dq 0) np nq) + absDiff (dp 1) (dq 1) np nq)
        + absDiff (dp 2) (dq 2) np nq) + absDiff (dp 3) (dq 3) np nq) + absDiff (dp 4) (dq 4) np nq
      = posTermD dp dq := by
  subst hp hq
  exact nestedPos_eq dp dq

/-- A rank-3 index set is the product of its three coordinate ranges … -/
def rank3Equiv {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_rank3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (rank3Equiv (n0 := n0) (n1 := n1) (n2 := n2)).symm f, Fintype.sum_prod_type]
  refine Finset.sum_congr rfl fun a _ => ?_
  rw [Fintype.sum_prod_type]
  rfl

private theorem block_lt {a b p q : ℕ} (hp : p < a) (hq : q < b) : b * p + q < a * b :=
  calc b * p + q < b * p + b := by omega
    _ = b * (p + 1) := by ring
    _ ≤ b * a := Nat.mul_le_mul_left b hp
    _ = a * b := Nat.mul_comm b a

/-- A sum over `Fin N`, N = a · b, is the sum over the a blocks of b consecutive indices. -/
theorem sum_fin_blocks {M : Type*} [AddCommMonoid M] {N : ℕ} (a b : ℕ) (h : a * b = N) (f : Fin N → M) :
    ∑ i, f i = ∑ p : Fin a, ∑ q : Fin b, f ⟨b * p.val + q.val, h ▸ block_lt p.isLt q.isLt⟩ := by
  subst h
  rw [← Equiv.sum_comp finProdFinEquiv f, Fintype.sum_prod_type]
  refine Finset.sum_congr rfl fun p _ => Finset.sum_congr rfl fun q _ => congrArg f (Fin.ext ?_)
  show q.val + b * p.val = b * p.val + q.val
  omega

theorem tile_row_lt {I y : ℕ} (hI : I < 2) (hy : y < 8) : 8 * I + y < 16 := by omega
theorem tile_col_lt {J x : ℕ} (hJ : J < 32) (hx : x < 8192) : 8192 * J + x < 262144 := by omega

/-- The positions 16 × 262144 regrouped as 2 × 32 tiles of 8 × 8192: row 8·I + y, column 8192·J + x. -/
theorem sum_positions_tiled {M : Type*} [AddCommMonoid M] (f : Fin 16 → Fin 262144 → M) :
    ∑ b : Fin 16, ∑ n : Fin 262144, f b n
      = ∑ I : Fin 2, ∑ J : Fin 32, ∑ y : Fin 8, ∑ x : Fin 8192,
          f ⟨8 * I.val + y.val, tile_row_lt I.isLt y.isLt⟩ ⟨8192 * J.val + x.val, tile_col_lt J.isLt x.isLt⟩ := by
  have rows : ∀ g : Fin 16 → M,
      ∑ b, g b = ∑ I : Fin 2, ∑ y : Fin 8, g ⟨8 * I.val + y.val, tile_row_lt I.isLt y.isLt⟩ :=
    fun g => sum_fin_blocks 2 8 (by norm_num) g
  have cols : ∀ g : Fin 262144 → M,
      ∑ n, g n = ∑ J : Fin 32, ∑ x : Fin 8192, g ⟨8192 * J.val + x.val, tile_col_lt J.isLt x.isLt⟩ :=
    fun g => sum_fin_blocks 32 8192 (by norm_num) g
  rw [rows]
  refine Finset.sum_congr rfl fun I _ => ?_
  simp only [cols]
  exact Finset.sum_comm

end Cert.RdLoss

end
-- ==== Proof.Tile.lean ====
/-
  One tile of the kernel, as values.

  At a grid point the body reads a tile of 8 × 8192 positions: the predictions `x0` and ground truths `x1` there, and
  for each of the five permutations the permuted partners `x2`, `x3` (shape 5 × 8 × 8192).  From these it forms, per
  position, the five differences to the partners, their guarded norms, and the sum of the five absolute differences of
  the normalised entries (`tileTotals`); it then adds the sum of those totals over the tile to the one-word scratch
  (`tileStep`).  Read at the exact instance, the total at position (a, b) is the specification's `posTerm` of the four
  inputs at that position, and the step adds the sum over the tile to the scratch.
-/
import proofs.«121587_j16561393893906_1_alg».proof.Proof.Gen.KernelIdeal.Skeleton
import proofs.«121587_j16561393893906_1_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Tile

open Cert.KernelIdeal Cert.KernelIdeal.Gen Idealize.ShloMosaic Idealize.ShloMosaic.ValueIdx Cert.RdLoss

variable {F : FTy → Type} [FloatOps F]

/-- The tile's four leading payloads: the first three partial sums of squares are formed with the first three
    differences, the rest with the last two. -/
def entriesSum (x0 x1 : Vec F S8x8192 .f32) (x2 x3 : Vec F S5x8x8192 .f32) : FVec F S8x8192 .f32 :=
  k0_pay22 (k0_pay4 x0) (k0_pay5 x1) (k0_pay6 x2) (k0_pay7 x3) (k0_pay8 x0 x2) (k0_pay9 x1 x3) (k0_pay10 x0 x2)
    (k0_pay11 x1 x3) (k0_pay12 x0 x2) (k0_pay13 x1 x3) (k0_pay14 x0 x2) (k0_pay15 x1 x3)

/-- The fifth entry of every position. -/
def lastEntry (x0 x1 : Vec F S8x8192 .f32) (x2 x3 : Vec F S5x8x8192 .f32) : FVec F S8x8192 .f32 :=
  k0_pay23 (k0_pay4 x0) (k0_pay5 x1) (k0_pay6 x2) (k0_pay7 x3) (k0_pay14 x0 x2) (k0_pay15 x1 x3)

/-- Per position of the tile: the five absolute differences of normalised entries, summed. -/
def tileTotals (x0 x1 : Vec F S8x8192 .f32) (x2 x3 : Vec F S5x8x8192 .f32) : FVec F S8x8192 .f32 :=
  addf (entriesSum x0 x1 x2 x3) (lastEntry x0 x1 x2 x3)

/-- The scratch word after the tile: what it held plus the tile's totals summed over the tile. -/
def tileStep (x0 x1 : Vec F S8x8192 .f32) (x2 x3 : Vec F S5x8x8192 .f32) (acc : Vec F S1x1 .f32) : FVec F S1x1 .f32 :=
  k0_pay1 (entriesSum x0 x1 x2 x3) (lastEntry x0 x1 x2 x3) acc

/-- Plane `r` of a 5 × 8 × 8192 block, viewed 8 × 8192, at (a, b) is the block at (r, a, b). -/
theorem plane_apply {α : Type} (v : S5x8x8192.Idx → α) (r : ℕ) (hr : r < 5) (hs : S5x8x8192.Slices ![r, 0, 0] S1x8x8192)
    (hc : S1x8x8192.ShapeCasts S8x8192) (a : Fin 8) (b : Fin 8192) :
    shapeCast S8x8192 (extractStridedSlice S1x8x8192 ![r, 0, 0] v hs) hc (ix2 a b) = v (ix3 ⟨r, hr⟩ a b) := by
  refine (shapeCast_apply _ hc (ix2 a b) (ix3 (0 : Fin 1) a b) ?_).trans ?_
  · rw [Shape.rowMajor_val_three, Shape.rowMajor_val_two]
    show (0 * 8 + a.val) * 8192 + b.val = a.val * 8192 + b.val
    omega
  · exact extractStridedSlice_apply _ v hs _ _ (fun d => match d with
      | ⟨0, _⟩ => by show r = r + 0; omega
      | ⟨1, _⟩ => by show a.val = 0 + a.val; omega
      | ⟨2, _⟩ => by show b.val = 0 + b.val; omega)

section AtIdeal

variable (x0 x1 : S8x8192.Idx → EReal) (x2 x3 : S5x8x8192.Idx → EReal)

/-- The five differences of the prediction at (a, b) to its partners, as the body forms them. -/
theorem diffs_pred (a : Fin 8) (b : Fin 8192) (r : Fin 5) :
    (![k0_pay8 (F := Ideal) x0 x2 (ix2 a b), k0_pay10 (F := Ideal) x0 x2 (ix2 a b), k0_pay12 (F := Ideal) x0 x2 (ix2 a b),
        k0_pay16 (F := Ideal) (k0_pay4 (F := Ideal) x0) (k0_pay6 (F := Ideal) x2) (ix2 a b),
        k0_pay18 (F := Ideal) (k0_pay4 (F := Ideal) x0) (k0_pay6 (F := Ideal) x2) (ix2 a b)] : Fin 5 → EReal) r
      = x0 (ix2 a b) - x2 (ix3 r a b) := by
  have e4 : k0_pay4 (F := Ideal) x0 = x0 := shapeCast_self _ _
  have e6 : k0_pay6 (F := Ideal) x2 = x2 := shapeCast_self _ _
  fin_cases r
  · show k0_pay8 (F := Ideal) x0 x2 (ix2 a b) = _
    unfold k0_pay8; rw [e4, e6]
    exact congrArg (x0 (ix2 a b) - ·) (plane_apply x2 0 (by omega) _ _ a b)
  · show k0_pay10 (F := Ideal) x0 x2 (ix2 a b) = _
    unfold k0_pay10; rw [e4, e6]
    exact congrArg (x0 (ix2 a b) - ·) (plane_apply x2 1 (by omega) _ _ a b)
  · show k0_pay12 (F := Ideal) x0 x2 (ix2 a b) = _
    unfold k0_pay12; rw [e4, e6]
    exact congrArg (x0 (ix2 a b) - ·) (plane_apply x2 2 (by omega) _ _ a b)
  · show k0_pay16 (F := Ideal) (k0_pay4 (F := Ideal) x0) (k0_pay6 (F := Ideal) x2) (ix2 a b) = _
    unfold k0_pay16; rw [e4, e6]
    exact congrArg (x0 (ix2 a b) - ·) (plane_apply x2 3 (by omega) _ _ a b)
  · show k0_pay18 (F := Ideal) (k0_pay4 (F := Ideal) x0) (k0_pay6 (F := Ideal) x2) (ix2 a b) = _
    unfold k0_pay18; rw [e4, e6]
    exact congrArg (x0 (ix2 a b) - ·) (plane_apply x2 4 (by omega) _ _ a b)

/-- The five differences of the ground truth at (a, b) to its partners, as the body forms them. -/
theorem diffs_truth (a : Fin 8) (b : Fin 8192) (r : Fin 5) :
    (![k0_pay9 (F := Ideal) x1 x3 (ix2 a b), k0_pay11 (F := Ideal) x1 x3 (ix2 a b), k0_pay13 (F := Ideal) x1 x3 (ix2 a b),
        k0_pay17 (F := Ideal) (k0_pay5 (F := Ideal) x1) (k0_pay7 (F := Ideal) x3) (ix2 a b),
        k0_pay19 (F := Ideal) (k0_pay5 (F := Ideal) x1) (k0_pay7 (F := Ideal) x3) (ix2 a b)] : Fin 5 → EReal) r
      = x1 (ix2 a b) - x3 (ix3 r a b) := by
  have e5 : k0_pay5 (F := Ideal) x1 = x1 := shapeCast_self _ _
  have e7 : k0_pay7 (F := Ideal) x3 = x3 := shapeCast_self _ _
  fin_cases r
  · show k0_pay9 (F := Ideal) x1 x3 (ix2 a b) = _
    unfold k0_pay9; rw [e5, e7]
    exact congrArg (x1 (ix2 a b) - ·) (plane_apply x3 0 (by omega) _ _ a b)
  · show k0_pay11 (F := Ideal) x1 x3 (ix2 a b) = _
    unfold k0_pay11; rw [e5, e7]
    exact congrArg (x1 (ix2 a b) - ·) (plane_apply x3 1 (by omega) _ _ a b)
  · show k0_pay13 (F := Ideal) x1 x3 (ix2 a b) = _
    unfold k0_pay13; rw [e5, e7]
    exact congrArg (x1 (ix2 a b) - ·) (plane_apply x3 2 (by omega) _ _ a b)
  · show k0_pay17 (F := Ideal) (k0_pay5 (F := Ideal) x1) (k0_pay7 (F := Ideal) x3) (ix2 a b) = _
    unfold k0_pay17; rw [e5, e7]
    exact congrArg (x1 (ix2 a b) - ·) (plane_apply x3 3 (by omega) _ _ a b)
  · show k0_pay19 (F := Ideal) (k0_pay5 (F := Ideal) x1) (k0_pay7 (F := Ideal) x3) (ix2 a b) = _
    unfold k0_pay19; rw [e5, e7]
    exact congrArg (x1 (ix2 a b) - ·) (plane_apply x3 4 (by omega) _ _ a b)

/-! The body's arithmetic read at one position, payload by payload. -/

theorem sumsq3_apply (u : S8x8192.Idx → EReal) (v : S5x8x8192.Idx → EReal) (i : S8x8192.Idx) :
    k0_pay14 (F := Ideal) u v i
      = ((Ideal.ofBits .f32 0x00000000#32 + k0_pay8 (F := Ideal) u v i * k0_pay8 (F := Ideal) u v i)
          + k0_pay10 (F := Ideal) u v i * k0_pay10 (F := Ideal) u v i)
          + k0_pay12 (F := Ideal) u v i * k0_pay12 (F := Ideal) u v i := rfl

theorem sumsq3'_apply (u : S8x8192.Idx → EReal) (v : S5x8x8192.Idx → EReal) (i : S8x8192.Idx) :
    k0_pay15 (F := Ideal) u v i
      = ((Ideal.ofBits .f32 0x00000000#32 + k0_pay9 (F := Ideal) u v i * k0_pay9 (F := Ideal) u v i)
          + k0_pay11 (F := Ideal) u v i * k0_pay11 (F := Ideal) u v i)
          + k0_pay13 (F := Ideal) u v i * k0_pay13 (F := Ideal) u v i := rfl

theorem norm_apply (v4 v40 : S8x8192.Idx → EReal) (v8 : S5x8x8192.Idx → EReal) (i : S8x8192.Idx) :
    k0_pay20 (F := Ideal) v4 v8 v40 i
      = Scalar.select
          (Ideal.cmp .oeq (Ideal.sqrt ((v40 i + k0_pay16 (F := Ideal) v4 v8 i * k0_pay16 (F := Ideal) v4 v8 i)
            + k0_pay18 (F := Ideal) v4 v8 i * k0_pay18 (F := Ideal) v4 v8 i)) (Ideal.ofBits .f32 0x00000000#32))
          (Ideal.ofBits .f32 0x3F800000#32)
          (Ideal.sqrt ((v40 i + k0_pay16 (F := Ideal) v4 v8 i * k0_pay16 (F := Ideal) v4 v8 i)
            + k0_pay18 (F := Ideal) v4 v8 i * k0_pay18 (F := Ideal) v4 v8 i)) := rfl

theorem norm'_apply (v6 v42 : S8x8192.Idx → EReal) (v10 : S5x8x8192.Idx → EReal) (i : S8x8192.Idx) :
    k0_pay21 (F := Ideal) v6 v10 v42 i
      = Scalar.select
          (Ideal.cmp .oeq (Ideal.sqrt ((v42 i + k0_pay17 (F := Ideal) v6 v10 i * k0_pay17 (F := Ideal) v6 v10 i)
            + k0_pay19 (F := Ideal) v6 v10 i * k0_pay19 (F := Ideal) v6 v10 i)) (Ideal.ofBits .f32 0x00000000#32))
          (Ideal.ofBits .f32 0x3F800000#32)
          (Ideal.sqrt ((v42 i + k0_pay17 (F := Ideal) v6 v10 i * k0_pay17 (F := Ideal) v6 v10 i)
            + k0_pay19 (F := Ideal) v6 v10 i * k0_pay19 (F := Ideal) v6 v10 i)) := rfl

theorem entries4_apply (v4 v6 v15 v18 v25 v28 v35 v38 v40 v42 : S8x8192.Idx → EReal) (v8 v10 : S5x8x8192.Idx → EReal)
    (i : S8x8192.Idx) :
    k0_pay22 (F := Ideal) v4 v6 v8 v10 v15 v18 v25 v28 v35 v38 v40 v42 i
      = (((Ideal.ofBits .f32 0x00000000#32
          + absDiff (v15 i) (v18 i) (k0_pay20 (F := Ideal) v4 v8 v40 i) (k0_pay21 (F := Ideal) v6 v10 v42 i))
          + absDiff (v25 i) (v28 i) (k0_pay20 (F := Ideal) v4 v8 v40 i) (k0_pay21 (F := Ideal) v6 v10 v42 i))
          + absDiff (v35 i) (v38 i) (k0_pay20 (F := Ideal) v4 v8 v40 i) (k0_pay21 (F := Ideal) v6 v10 v42 i))
          + absDiff (k0_pay16 (F := Ideal) v4 v8 i) (k0_pay17 (F := Ideal) v6 v10 i)
              (k0_pay20 (F := Ideal) v4 v8 v40 i) (k0_pay21 (F := Ideal) v6 v10 v42 i) := rfl

theorem entry5_apply (v4 v6 v40 v42 : S8x8192.Idx → EReal) (v8 v10 : S5x8x8192.Idx → EReal) (i : S8x8192.Idx) :
    k0_pay23 (F := Ideal) v4 v6 v8 v10 v40 v42 i
      = absDiff (k0_pay18 (F := Ideal) v4 v8 i) (k0_pay19 (F := Ideal) v6 v10 i)
          (k0_pay20 (F := Ideal) v4 v8 v40 i) (k0_pay21 (F := Ideal) v6 v10 v42 i) := rfl

/-- The tile's total at position (a, b) is the specification's term of the four inputs there: the body adds the
    squares and the entries one at a time to a zero word, which is the sum over the five permutations. -/
theorem tileTotals_apply (a : Fin 8) (b : Fin 8192) :
    tileTotals (F := Ideal) x0 x1 x2 x3 (ix2 a b)
      = posTerm (x0 (ix2 a b)) (x1 (ix2 a b)) (fun r => x2 (ix3 r a b)) (fun r => x3 (ix3 r a b)) := by
  have p0 : k0_pay8 (F := Ideal) x0 x2 (ix2 a b) = x0 (ix2 a b) - x2 (ix3 0 a b) := diffs_pred x0 x2 a b 0
  have p1 : k0_pay10 (F := Ideal) x0 x2 (ix2 a b) = x0 (ix2 a b) - x2 (ix3 1 a b) := diffs_pred x0 x2 a b 1
  have p2 : k0_pay12 (F := Ideal) x0 x2 (ix2 a b) = x0 (ix2 a b) - x2 (ix3 2 a b) := diffs_pred x0 x2 a b 2
  have p3 : k0_pay16 (F := Ideal) (k0_pay4 (F := Ideal) x0) (k0_pay6 (F := Ideal) x2) (ix2 a b)
      = x0 (ix2 a b) - x2 (ix3 3 a b) := diffs_pred x0 x2 a b 3
  have p4 : k0_pay18 (F := Ideal) (k0_pay4 (F := Ideal) x0) (k0_pay6 (F := Ideal) x2) (ix2 a b)
      = x0 (ix2 a b) - x2 (ix3 4 a b) := diffs_pred x0 x2 a b 4
  have q0 : k0_pay9 (F := Ideal) x1 x3 (ix2 a b) = x1 (ix2 a b) - x3 (ix3 0 a b) := diffs_truth x1 x3 a b 0
  have q1 : k0_pay11 (F := Ideal) x1 x3 (ix2 a b) = x1 (ix2 a b) - x3 (ix3 1 a b) := diffs_truth x1 x3 a b 1
  have q2 : k0_pay13 (F := Ideal) x1 x3 (ix2 a b) = x1 (ix2 a b) - x3 (ix3 2 a b) := diffs_truth x1 x3 a b 2
  have q3 : k0_pay17 (F := Ideal) (k0_pay5 (F := Ideal) x1) (k0_pay7 (F := Ideal) x3) (ix2 a b)
      = x1 (ix2 a b) - x3 (ix3 3 a b) := diffs_truth x1 x3 a b 3
  have q4 : k0_pay19 (F := Ideal) (k0_pay5 (F := Ideal) x1) (k0_pay7 (F := Ideal) x3) (ix2 a b)
      = x1 (ix2 a b) - x3 (ix3 4 a b) := diffs_truth x1 x3 a b 4
  show entriesSum (F := Ideal) x0 x1 x2 x3 (ix2 a b) + lastEntry (F := Ideal) x0 x1 x2 x3 (ix2 a b) = _
  unfold entriesSum lastEntry
  rw [entries4_apply, entry5_apply, norm_apply, norm'_apply, sumsq3_apply, sumsq3'_apply,
    p0, p1, p2, p3, p4, q0, q1, q2, q3, q4]
  exact nested_total (fun r => x0 (ix2 a b) - x2 (ix3 r a b)) (fun r => x1 (ix2 a b) - x3 (ix3 r a b)) _ _ rfl rfl

/-- A lane sum over both axes of an 8 × 8192 vector, taken through its view with a leading unit axis, is the sum over
    all its positions. -/
theorem laneSum (v : S8x8192.Idx → EReal) (hφ : FKind.Formats .f32)
    (hacc : (0x00000000#32 : BitVec 32) = 0x00000000#32) (j : S1.Idx) :
    multiReduction (F := Ideal) .add [1, 2] S1 (shapeCast S1x8x8192 v shapeCasts_S8x8192_S1x8x8192) 0x00000000#32
        reduces_S1x8x8192_S1 hφ hacc j
      = ∑ y : S8x8192.Idx, v y :=
  (Ideal.multiReduction_add_total (shapeCast S1x8x8192 v shapeCasts_S8x8192_S1x8x8192) 0x00000000#32 reduces_S1x8x8192_S1
      (fun b => by fin_cases b; rfl) hφ hacc j).trans
    (Equiv.sum_comp (Shape.reshapeEquiv shapeCasts_S8x8192_S1x8x8192) v)

/-- The one element of a one-element vector viewed 1 × 1 × 1. -/
theorem extract_single {α : Type} (R : S1.Idx → α) :
    extractAt ![0, 0, 0] (shapeCast S1x1x1 R shapeCasts_S1_S1x1x1) inpos_S1x1x1_p0_0_0 = R (ix1 (0 : Fin 1)) := by
  unfold extractAt
  exact shapeCast_apply R shapeCasts_S1_S1x1x1 _ (ix1 (0 : Fin 1)) (by
    rw [Shape.rowMajor_val_one, Shape.rowMajor_val_three]; rfl)

/-- The scratch update over any two vectors: the word it held plus the sum over the tile of their entrywise sum. -/
theorem scratchUpdate_apply (u w : S8x8192.Idx → EReal) (acc : S1x1.Idx → EReal) (j : S1x1.Idx) :
    k0_pay1 (F := Ideal) u w acc j = acc j + ∑ y : S8x8192.Idx, addf (F := Ideal) (φ := .f32) u w y := by
  unfold k0_pay1
  rw [shapeCast_self, extract_single, laneSum, addf_apply, broadcast_apply]

/-- The scratch word after the tile is what it held plus the tile's totals summed over the tile's positions. -/
theorem tileStep_apply (acc : S1x1.Idx → EReal) (j : S1x1.Idx) :
    tileStep (F := Ideal) x0 x1 x2 x3 acc j = acc j + ∑ y : S8x8192.Idx, tileTotals (F := Ideal) x0 x1 x2 x3 y := by
  unfold tileStep tileTotals
  exact scratchUpdate_apply _ _ acc j

end AtIdeal

end Cert.KernelIdeal.Tile

end
-- ==== Proof.Acc.lean ====
/-
  What the kernel's scratch word and output block hold after each grid point, and the result array after the run.

  The grid is 2 × 32: point t works on tile row t / 32 and tile column t % 32.  At the first point of a tile row the body
  resets the scratch word to zero; at every point it adds the tile's sum to it; at the last point of the row it copies
  the word to the row's output block.  So the scratch after point t is the sum of the tile sums of the points of its
  row up to t, and the output block of row I ends at the sum over the row's 32 tiles.
-/
import proofs.«121587_j16561393893906_1_alg».proof.Proof.Gen.KernelIdeal.Frame
import proofs.«121587_j16561393893906_1_alg».proof.Proof.Tile
import Idealize.ShloMosaic.Lib.Pipeline.Value
import Idealize.ShloMosaic.Lib.Tactic
import Idealize.ShloMosaic.Lib.IdealHost
import Idealize.ShloMosaic.Lib.StableHlo.Run

noncomputable section

open scoped BigOperators

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Tile Idealize.ShloMosaic.ValueIdx Cert.RdLoss

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves -/

/-- Between a tile row's first and last points the body leaves, in the scratch holding `xs0`, the tile's step of it. -/
theorem scratch_B (c : Dev nD) (i : grid0.Coords) (a2 : Memref sig .tc .vmem S8x8192 .f32) (h2 : a2.IsWhole) (a3 : Memref sig .tc .vmem S8x8192 .f32) (h3 : a3.IsWhole) (a4 : Memref sig .tc .vmem S5x8x8192 .f32) (h4 : a4.IsWhole) (a5 : Memref sig .tc .vmem S5x8x8192 .f32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i) (x0 x1 : Vec F S8x8192 .f32) (x2 x3 : Vec F S5x8x8192 .f32) (xs0 : Vec F S1x1 .f32) :
    sout0_B_0 c i a2 h2 a3 h3 a4 h4 a5 h5 a6 h6 a7 h7 hc0 hc1 x0 x1 x2 x3 xs0 = tileStep x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz2]
  unfold tileStep entriesSum lastEntry
  simp only [View.readAt_eq_ld, h2.read_unread, h3.read_unread, h4.read_unread, h5.read_unread, h7.read_unread,
    View.ld_unit_zero (S := S8x8192) hz2, View.ld_unit_zero (S := S5x8x8192) hz3, View.ld_unit_zero (S := S1x1) hz2]

/-- At a tile row's last point likewise, -/
theorem scratch_C (c : Dev nD) (i : grid0.Coords) (a2 : Memref sig .tc .vmem S8x8192 .f32) (h2 : a2.IsWhole) (a3 : Memref sig .tc .vmem S8x8192 .f32) (h3 : a3.IsWhole) (a4 : Memref sig .tc .vmem S5x8x8192 .f32) (h4 : a4.IsWhole) (a5 : Memref sig .tc .vmem S5x8x8192 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 x1 : Vec F S8x8192 .f32) (x2 x3 : Vec F S5x8x8192 .f32) (xs0 : Vec F S1x1 .f32) :
    sout0_C_0 c i a2 h2 a3 h3 a4 h4 a5 h5 a6 h6 a7 h7 hc0 hc1 x0 x1 x2 x3 xs0 = tileStep x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz2]
  unfold tileStep entriesSum lastEntry
  simp only [View.readAt_eq_ld, h2.read_unread, h3.read_unread, h4.read_unread, h5.read_unread, h7.read_unread,
    View.ld_unit_zero (S := S8x8192) hz2, View.ld_unit_zero (S := S5x8x8192) hz3, View.ld_unit_zero (S := S1x1) hz2]

/-- and the output block there is that scratch word, viewed 1 × 1 × 1. -/
theorem out_C (c : Dev nD) (i : grid0.Coords) (a2 : Memref sig .tc .vmem S8x8192 .f32) (h2 : a2.IsWhole) (a3 : Memref sig .tc .vmem S8x8192 .f32) (h3 : a3.IsWhole) (a4 : Memref sig .tc .vmem S5x8x8192 .f32) (h4 : a4.IsWhole) (a5 : Memref sig .tc .vmem S5x8x8192 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 x1 : Vec F S8x8192 .f32) (x2 x3 : Vec F S5x8x8192 .f32) (xs0 : Vec F S1x1 .f32) :
    out0_C_4 c i a2 h2 a3 h3 a4 h4 a5 h5 a6 h6 a7 h7 hc0 hc1 x0 x1 x2 x3 xs0 = k0_pay2 (tileStep x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz3]
  unfold tileStep entriesSum lastEntry
  simp only [View.readAt_eq_ld, h2.read_unread, h3.read_unread, h4.read_unread, h5.read_unread, h7.read_unread,
    View.ld_unit_zero (S := S8x8192) hz2, View.ld_unit_zero (S := S5x8x8192) hz3, View.ld_unit_zero (S := S1x1) hz2,
    View.readCov_unit_zero (S := S1x1) _ hz2]

/-- At a tile row's first point the body first stores the zero word, then leaves the tile's step of it. -/
theorem scratch_A (c : Dev nD) (i : grid0.Coords) (a2 : Memref sig .tc .vmem S8x8192 .f32) (h2 : a2.IsWhole) (a3 : Memref sig .tc .vmem S8x8192 .f32) (h3 : a3.IsWhole) (a4 : Memref sig .tc .vmem S5x8x8192 .f32) (h4 : a4.IsWhole) (a5 : Memref sig .tc .vmem S5x8x8192 .f32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i) (x0 x1 : Vec F S8x8192 .f32) (x2 x3 : Vec F S5x8x8192 .f32) :
    sout0_A_0 c i a2 h2 a3 h3 a4 h4 a5 h5 a6 h6 a7 h7 hc0 hc1 x0 x1 x2 x3 = tileStep x0 x1 x2 x3 (k0_pay3 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz2, View.readCov_unit_zero (S := S1x1) _ hz2]
  unfold tileStep entriesSum lastEntry
  simp only [View.readAt_eq_ld, h2.read_unread, h3.read_unread, h4.read_unread, h5.read_unread,
    View.ld_unit_zero (S := S8x8192) hz2, View.ld_unit_zero (S := S5x8x8192) hz3]

/-! ## The scratch word and the output block after each point, at the exact instance -/

section AtIdeal

variable (m : (ℓ : Loc nD τ sig) → Buf (Elt Ideal) ℓ) (ρ : Dev nD → PrngReg)

/-- The four blocks the body reads at point `t`, at their literal shapes. -/
abbrev blk0 (c : Dev nD) (t : Fin cfg0.N) : S8x8192.Idx → EReal := iblk m c 0 t
abbrev blk1 (c : Dev nD) (t : Fin cfg0.N) : S8x8192.Idx → EReal := iblk m c 1 t
abbrev blk2 (c : Dev nD) (t : Fin cfg0.N) : S5x8x8192.Idx → EReal := iblk m c 2 t
abbrev blk3 (c : Dev nD) (t : Fin cfg0.N) : S5x8x8192.Idx → EReal := iblk m c 3 t

/-- The sum of the tile's totals at point `k` (zero past the grid's 64 points). -/
def tileSum (c : Dev nD) (k : ℕ) : EReal :=
  if h : k < cfg0.N then ∑ y : S8x8192.Idx, tileTotals (F := Ideal) (blk0 m c ⟨k, h⟩) (blk1 m c ⟨k, h⟩) (blk2 m c ⟨k, h⟩) (blk3 m c ⟨k, h⟩) y else 0

theorem tileSum_of_lt (c : Dev nD) (k : ℕ) (h : k < cfg0.N) :
    tileSum m c k = ∑ y : S8x8192.Idx, tileTotals (F := Ideal) (blk0 m c ⟨k, h⟩) (blk1 m c ⟨k, h⟩) (blk2 m c ⟨k, h⟩) (blk3 m c ⟨k, h⟩) y := dif_pos h

/-- The zero word the reset stores. -/
theorem resetWord_apply (j : S1x1.Idx) : k0_pay3 (F := Ideal) j = 0 := by
  show Ideal.ofBits .f32 0x00000000#32 = 0
  exact Ideal.ofBits_zero_f32

/-- THE RUNNING SUM: after point `n` the scratch word is the sum of the tile sums of its tile row's points up to `n`. -/
theorem scratch_apply (c : Dev nD) : ∀ (n : ℕ) (h : n < cfg0.N) (j : S1x1.Idx),
    (outsAt0 m c n h).2 j = ∑ s ∈ Finset.range (n % 32 + 1), tileSum m c (32 * (n / 32) + s)
  | 0, h, j => by
    have e : outsAt0 m c 0 h = _ := outsAt0_A m c ⟨0, h⟩ rfl (show ¬(0 : ℕ) % 32 = 31 by decide)
    rw [e]
    dsimp only
    rw [scratch_A]
    show tileStep (F := Ideal) (blk0 m c ⟨0, h⟩) (blk1 m c ⟨0, h⟩) (blk2 m c ⟨0, h⟩) (blk3 m c ⟨0, h⟩) (k0_pay3 (F := Ideal)) j = _
    rw [tileStep_apply, resetWord_apply, zero_add]
    show _ = ∑ s ∈ Finset.range 1, tileSum m c (0 + s)
    rw [Finset.sum_range_one]
    show _ = tileSum m c 0
    rw [tileSum_of_lt m c 0 h]
  | n + 1, h, j => by
    have hN : cfg0.N = 64 := N_0
    have hn : n < cfg0.N := Nat.lt_of_succ_lt h
    by_cases h0 : (n + 1) % 32 = 0
    · have h1 : ¬(n + 1) % 32 = 31 := by omega
      have e : outsAt0 m c (n + 1) h = _ := outsAt0_A m c ⟨n + 1, h⟩ h0 h1
      rw [e]
      dsimp only
      rw [scratch_A]
      show tileStep (F := Ideal) (blk0 m c ⟨n + 1, h⟩) (blk1 m c ⟨n + 1, h⟩) (blk2 m c ⟨n + 1, h⟩) (blk3 m c ⟨n + 1, h⟩) (k0_pay3 (F := Ideal)) j = _
      rw [tileStep_apply, resetWord_apply, zero_add, h0]
      rw [show (0 : ℕ) + 1 = 1 from rfl, Finset.sum_range_one,
        show 32 * ((n + 1) / 32) + 0 = n + 1 from by omega, tileSum_of_lt m c (n + 1) h]
    · have ih := scratch_apply c n hn
      have hmod : (n + 1) % 32 = n % 32 + 1 := by omega
      have hdiv : (n + 1) / 32 = n / 32 := by omega
      have hlast : 32 * (n / 32) + (n % 32 + 1) = n + 1 := by omega
      by_cases h1 : (n + 1) % 32 = 31
      · have e : outsAt0 m c (n + 1) h = _ := outsAt0_C m c ⟨n + 1, h⟩ h0 h1
        rw [e]
        dsimp only
        rw [scratch_C]
        show tileStep (F := Ideal) (blk0 m c ⟨n + 1, h⟩) (blk1 m c ⟨n + 1, h⟩) (blk2 m c ⟨n + 1, h⟩) (blk3 m c ⟨n + 1, h⟩) (outsAt0 m c n hn).2 j = _
        rw [tileStep_apply, ih, hmod, hdiv, Finset.sum_range_succ _ (n % 32 + 1), hlast, tileSum_of_lt m c (n + 1) h]
      · have e : outsAt0 m c (n + 1) h = _ := outsAt0_B m c ⟨n + 1, h⟩ h0 h1
        rw [e]
        dsimp only
        rw [scratch_B]
        show tileStep (F := Ideal) (blk0 m c ⟨n + 1, h⟩) (blk1 m c ⟨n + 1, h⟩) (blk2 m c ⟨n + 1, h⟩) (blk3 m c ⟨n + 1, h⟩) (outsAt0 m c n hn).2 j = _
        rw [tileStep_apply, ih, hmod, hdiv, Finset.sum_range_succ _ (n % 32 + 1), hlast, tileSum_of_lt m c (n + 1) h]

/-- The scratch word viewed 1 × 1 × 1 reads the word. -/
theorem asBlock_apply (v : S1x1.Idx → EReal) (y : S1x1x1.Idx) : k0_pay2 (F := Ideal) v y = v (ix2 (0 : Fin 1) (0 : Fin 1)) := by
  have h0 : (y 0).val < 1 := (y 0).isLt
  have h1 : (y 1).val < 1 := (y 1).isLt
  have h2 : (y 2).val < 1 := (y 2).isLt
  exact shapeCast_apply v shapeCasts_S1x1_S1x1x1 y (ix2 (0 : Fin 1) (0 : Fin 1)) (by
    rw [Shape.rowMajor_val_two, Shape.rowMajor_val_three]
    show 0 * 1 + 0 = ((y 0).val * 1 + (y 1).val) * 1 + (y 2).val
    omega)

/-- THE OUTPUT BLOCK at a tile row's last point: the sum of the row's 32 tile sums. -/
theorem out_apply (c : Dev nD) (t : Fin cfg0.N) (h1 : t.val % 32 = 31) (y : S1x1x1.Idx) :
    (outsAt0 m c t.val t.isLt).1 y = ∑ s ∈ Finset.range 32, tileSum m c (32 * (t.val / 32) + s) := by
  have hN : cfg0.N = 64 := N_0
  obtain ⟨n, hn⟩ := t
  cases n with
  | zero => exact absurd h1 (show ¬(0 : ℕ) % 32 = 31 by decide)
  | succ n =>
    have h0 : ¬(n + 1) % 32 = 0 := by have : (n + 1) % 32 = 31 := h1; omega
    have hn' : n < cfg0.N := Nat.lt_of_succ_lt hn
    have hs := scratch_apply m c (n + 1) hn
    have e : outsAt0 m c (n + 1) hn = _ := outsAt0_C m c ⟨n + 1, hn⟩ h0 h1
    rw [e] at hs ⊢
    dsimp only at hs ⊢
    rw [out_C, asBlock_apply]
    rw [scratch_C] at hs
    rw [hs (ix2 (0 : Fin 1) (0 : Fin 1))]
    have h31 : (n + 1) % 32 = 31 := h1
    rw [h31]

end AtIdeal

/-! ## The result array after the run, and the program's scalar result -/

section Final

variable (m : (ℓ : Loc nD τ sig) → Buf (Elt Ideal) ℓ) (ρ : Dev nD → PrngReg)

/-- What the region's result array ends holding: for tile row `I` the sum of its 32 tile sums. -/
def rowSums (c : Dev nD) : S2x1x1.Idx → EReal := fun i => ∑ s ∈ Finset.range 32, tileSum m c (32 * (i 0).val + s)

/-- The output's block index at point `t` is its tile row, decided over the grid. -/
theorem outIndex : ∀ t : Fin cfg0.N, win0_4.index t (0 : Fin 3) = t.val / 32 ∧ win0_4.index t (1 : Fin 3) = 0
    ∧ win0_4.index t (2 : Fin 3) = 0 :=
  (by decide +kernel : ∀ t : Fin grid0.N, _)

/-- What a tile row's last point writes back is the row's block of `rowSums`. -/
theorem flushed_eq (c : Dev nD) (t : Fin cfg0.N) (hf : (cfg0.win 4).flush t = true) :
    (dats m 0 c).flushed 4 t = ((cfg0.win 4).blk t).view.read (Elt Ideal) (rowSums m c) := by
  have h31 : t.val % 32 = 31 := (flush0_4 t).mp hf
  show (cfg0.win 4).cut (grid0.coords t) ((dats m 0 c).after 4 t) = _
  rw [after0_4]
  funext y
  show (outsAt0 m c t.val t.isLt).1 y = rowSums m c (((cfg0.win 4).blk t).view.emb y)
  rw [out_apply m c t h31 y]
  unfold rowSums
  have hy : (y 0).val < 1 := (y 0).isLt
  have he : ((((cfg0.win 4).blk t).view.emb y) 0).val = t.val / 32 := by
    show win0_4.index t (0 : Fin 3) * 1 + 1 * (y 0).val = _
    rw [(outIndex t).1]; omega
  rw [he]

/-- An index of the result array is in point `t`'s block iff each coordinate is in the block's range on its axis. -/
theorem mem_blk (t : Fin cfg0.N) (i : S2x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v6).slice (win0_4.rect t)).set ↔ _
  rw [View.set_slice_whole, Rect.mem_set_unit]
  exact Iff.rfl

/-- Every index of the result array is in the block of its tile row's last point. -/
theorem covered (i : S2x1x1.Idx) :
    ∃ t : Fin cfg0.N, (cfg0.win 4).flush t = true ∧ i ∈ ((cfg0.win 4).blk t).view.set := by
  have hN : cfg0.N = 64 := N_0
  have hi0 : (i 0).val < 2 := (i 0).isLt
  have hi1 : (i 1).val < 1 := (i 1).isLt
  have hi2 : (i 2).val < 1 := (i 2).isLt
  have hlt : 32 * (i 0).val + 31 < cfg0.N := by omega
  obtain ⟨e0, e1, e2⟩ := outIndex ⟨32 * (i 0).val + 31, hlt⟩
  have e0' : win0_4.index ⟨32 * (i 0).val + 31, hlt⟩ (0 : Fin 3) = (i 0).val := by
    rw [e0]; show (32 * (i 0).val + 31) / 32 = _; omega
  refine ⟨⟨32 * (i 0).val + 31, hlt⟩, (flush0_4 _).mpr (by show (32 * (i 0).val + 31) % 32 = 31; omega), ?_⟩
  rw [mem_blk]
  intro a
  match a with
  | ⟨0, _⟩ =>
    show win0_4.index ⟨32 * (i 0).val + 31, hlt⟩ (0 : Fin 3) * 1 ≤ (i 0).val
      ∧ (i 0).val < win0_4.index ⟨32 * (i 0).val + 31, hlt⟩ (0 : Fin 3) * 1 + 1
    rw [e0']; omega
  | ⟨1, _⟩ =>
    show win0_4.index ⟨32 * (i 0).val + 31, hlt⟩ (1 : Fin 3) * 1 ≤ (i 1).val
      ∧ (i 1).val < win0_4.index ⟨32 * (i 0).val + 31, hlt⟩ (1 : Fin 3) * 1 + 1
    rw [e1]; omega
  | ⟨2, _⟩ =>
    show win0_4.index ⟨32 * (i 0).val + 31, hlt⟩ (2 : Fin 3) * 1 ≤ (i 2).val
      ∧ (i 2).val < win0_4.index ⟨32 * (i 0).val + 31, hlt⟩ (2 : Fin 3) * 1 + 1
    rw [e2]; omega

/-- THE RESULT ARRAY after the run: the sums of the two tile rows. -/
theorem final_rows (c : Dev nD) : (dats m 0 c).arrAt 4 cfg0.N = rowSums m c :=
  (dats m 0 c).arrAt_eq_of_cover 4 (rowSums m c) (flushed_eq m c) covered

/-- The host operations after the region, applied to the result array: its sum over the word 20971520.0. -/
def tailOf (x : S2x1x1.Idx → EReal) : S_.Idx → EReal :=
  Host.divf (F := Ideal) (φ := .f32)
    (Host.reduceAdd (F := Ideal) (φ := .f32) x (constant (F := Ideal) S_ .f32 0x00000000#32) reducesTo_S2x1x1_S_d0_1_2 h_S_)
    (constant (F := Ideal) S_ .f32 0x4BA00000#32)

/-- The program's result buffer after the run is the tail of the tile rows' sums. -/
theorem tail_eq (c : Dev nD) :
    Pipeline.afterTail₀ cfgs (dats m) 0 (V0 m) [hostOps1] c main_v8 = tailOf (rowSums m c) := by
  have e : Pipeline.withArrays spec0 c (V0 m c) (fun w => (dats m 0 c).arrAt w cfg0.N) (Proc.devRef .tc main_v6)
      = rowSums m c := (Pipeline.withArrays_arr spec0 launch0.win.arr_inj c _ _ 4).trans (final_rows m c)
  unfold Pipeline.afterTail₀
  show StableHlo.after hostOps1 _ (Proc.devRef .tc main_v8) = _
  after_results
  rw [e]
  rfl

/-- The tail read: the sum of the rows' sums over the word 20971520.0. -/
theorem tailOf_apply (x : S2x1x1.Idx → EReal) (i : S_.Idx) :
    tailOf x i = Ideal.div (∑ I : Fin 2, x (ix3 I (0 : Fin 1) (0 : Fin 1))) (Ideal.ofBits .f32 0x4BA00000#32) := by
  unfold tailOf
  rw [hostDivf_apply, hostReduceAdd_apply, Ideal.hostReduceAdd_total _ (fun b => b.elim0), constant_apply, constant_apply,
    Ideal.ofBits_zero_f32, zero_add, sum_rank3]
  refine congrArg (fun s => Ideal.div s (Ideal.ofBits .f32 0x4BA00000#32)) ?_
  refine Finset.sum_congr rfl fun I _ => ?_
  rw [Fin.sum_univ_one, Fin.sum_univ_one]

end Final

end Cert.KernelIdeal.Acc

end
-- ==== Proof.Bridge.lean ====
/-
  A tile's sum in terms of the arrays the region finds.

  At point 32·I + J the four windows' blocks are the tile of rows 8·I … 8·I + 7 and columns 8192·J … 8192·J + 8191 of the
  two flattened maps, and the same tile of each of the five planes of their permuted copies.  So the tile's sum is the
  sum over the tile's positions of the specification's term of the arrays at row 8·I + y, column 8192·J + x.
-/
import proofs.«121587_j16561393893906_1_alg».proof.Proof.Acc

noncomputable section

open scoped BigOperators

namespace Cert.KernelIdeal.Bridge

open Cert.KernelIdeal Cert.KernelIdeal.Gen Cert.KernelIdeal.Tile Cert.KernelIdeal.Acc Idealize.ShloMosaic
  Idealize.ShloMosaic.TcCoe Idealize.SL.Sem Idealize.ShloMosaic.ValueIdx Cert.RdLoss

variable (m : (ℓ : Loc nD τ sig) → Buf (Elt Ideal) ℓ)

/-- The four arrays the region reads, at their literal shapes. -/
abbrev arrP (c : Dev nD) : S16x262144.Idx → EReal := V m c main_v0
abbrev arrQ (c : Dev nD) : S16x262144.Idx → EReal := V m c main_v1
abbrev arrGP (c : Dev nD) : S5x16x262144.Idx → EReal := V m c main_v3
abbrev arrGQ (c : Dev nD) : S5x16x262144.Idx → EReal := V m c main_v5

/-- The input windows' block indices at point `t`, decided over the grid: tile row `t / 32` and tile column `t % 32`,
    the permutation axis whole. -/
theorem inIndex : ∀ t : Fin cfg0.N,
    win0_0.index t (0 : Fin 2) = t.val / 32 ∧ win0_0.index t (1 : Fin 2) = t.val % 32
    ∧ win0_1.index t (0 : Fin 2) = t.val / 32 ∧ win0_1.index t (1 : Fin 2) = t.val % 32
    ∧ win0_2.index t (0 : Fin 3) = 0 ∧ win0_2.index t (1 : Fin 3) = t.val / 32 ∧ win0_2.index t (2 : Fin 3) = t.val % 32
    ∧ win0_3.index t (0 : Fin 3) = 0 ∧ win0_3.index t (1 : Fin 3) = t.val / 32 ∧ win0_3.index t (2 : Fin 3) = t.val % 32 :=
  (by decide +kernel : ∀ t : Fin grid0.N, _)

/-- Point 32·I + J lies in tile row I … -/
theorem point_div (I : Fin 2) (J : Fin 32) : (32 * I.val + J.val) / 32 = I.val := by
  have := J.isLt; omega
/-- … and tile column J. -/
theorem point_mod (I : Fin 2) (J : Fin 32) : (32 * I.val + J.val) % 32 = J.val := by
  have := J.isLt; omega

/-- Window 0's block at point 32·I + J read off ANY array of the flattened maps' shape, at (a, b): the array at row
    8·I + a, column 8192·J + b. -/
theorem read0 (A : S16x262144.Idx → EReal) (I : Fin 2) (J : Fin 32) (h : 32 * I.val + J.val < cfg0.N)
    (a : Fin 8) (b : Fin 8192) :
    ((cfg0.win 0).blk ⟨32 * I.val + J.val, h⟩).view.read (Elt Ideal) A (ix2 a b)
      = A (ix2 ⟨8 * I.val + a.val, tile_row_lt I.isLt a.isLt⟩ ⟨8192 * J.val + b.val, tile_col_lt J.isLt b.isLt⟩) := by
  have e0 : win0_0.index ⟨32 * I.val + J.val, h⟩ (0 : Fin 2) = (32 * I.val + J.val) / 32 := (inIndex _).1
  have e1 : win0_0.index ⟨32 * I.val + J.val, h⟩ (1 : Fin 2) = (32 * I.val + J.val) % 32 := (inIndex _).2.1
  rw [point_div] at e0
  rw [point_mod] at e1
  rw [View.read_apply]
  show A _ = A _
  refine congrArg A ?_
  funext d
  apply Fin.ext
  match d with
  | ⟨0, _⟩ => show win0_0.index ⟨32 * I.val + J.val, h⟩ (0 : Fin 2) * 8 + 1 * a.val = 8 * I.val + a.val; rw [e0]; omega
  | ⟨1, _⟩ => show win0_0.index ⟨32 * I.val + J.val, h⟩ (1 : Fin 2) * 8192 + 1 * b.val = 8192 * J.val + b.val; rw [e1]; omega

/-- Window 1's block at point 32·I + J read off ANY array of the flattened maps' shape, at (a, b): the array at row
    8·I + a, column 8192·J + b. -/
theorem read1 (A : S16x262144.Idx → EReal) (I : Fin 2) (J : Fin 32) (h : 32 * I.val + J.val < cfg0.N)
    (a : Fin 8) (b : Fin 8192) :
    ((cfg0.win 1).blk ⟨32 * I.val + J.val, h⟩).view.read (Elt Ideal) A (ix2 a b)
      = A (ix2 ⟨8 * I.val + a.val, tile_row_lt I.isLt a.isLt⟩ ⟨8192 * J.val + b.val, tile_col_lt J.isLt b.isLt⟩) := by
  have e0 : win0_1.index ⟨32 * I.val + J.val, h⟩ (0 : Fin 2) = (32 * I.val + J.val) / 32 := (inIndex _).2.2.1
  have e1 : win0_1.index ⟨32 * I.val + J.val, h⟩ (1 : Fin 2) = (32 * I.val + J.val) % 32 := (inIndex _).2.2.2.1
  rw [point_div] at e0
  rw [point_mod] at e1
  rw [View.read_apply]
  show A _ = A _
  refine congrArg A ?_
  funext d
  apply Fin.ext
  match d with
  | ⟨0, _⟩ => show win0_1.index ⟨32 * I.val + J.val, h⟩ (0 : Fin 2) * 8 + 1 * a.val = 8 * I.val + a.val; rw [e0]; omega
  | ⟨1, _⟩ => show win0_1.index ⟨32 * I.val + J.val, h⟩ (1 : Fin 2) * 8192 + 1 * b.val = 8192 * J.val + b.val; rw [e1]; omega

/-- Window 2's block at point 32·I + J read off ANY array of the permuted copies' shape, at (r, a, b): the array at plane r,
    row 8·I + a, column 8192·J + b. -/
theorem read2 (A : S5x16x262144.Idx → EReal) (I : Fin 2) (J : Fin 32) (h : 32 * I.val + J.val < cfg0.N)
    (r : Fin 5) (a : Fin 8) (b : Fin 8192) :
    ((cfg0.win 2).blk ⟨32 * I.val + J.val, h⟩).view.read (Elt Ideal) A (ix3 r a b)
      = A (ix3 r ⟨8 * I.val + a.val, tile_row_lt I.isLt a.isLt⟩ ⟨8192 * J.val + b.val, tile_col_lt J.isLt b.isLt⟩) := by
  have e0 : win0_2.index ⟨32 * I.val + J.val, h⟩ (0 : Fin 3) = 0 := (inIndex _).2.2.2.2.1
  have e1 : win0_2.index ⟨32 * I.val + J.val, h⟩ (1 : Fin 3) = (32 * I.val + J.val) / 32 := (inIndex _).2.2.2.2.2.1
  have e2 : win0_2.index ⟨32 * I.val + J.val, h⟩ (2 : Fin 3) = (32 * I.val + J.val) % 32 := (inIndex _).2.2.2.2.2.2.1
  rw [point_div] at e1
  rw [point_mod] at e2
  rw [View.read_apply]
  show A _ = A _
  refine congrArg A ?_
  funext d
  apply Fin.ext
  match d with
  | ⟨0, _⟩ => show win0_2.index ⟨32 * I.val + J.val, h⟩ (0 : Fin 3) * 5 + 1 * r.val = r.val; rw [e0]; omega
  | ⟨1, _⟩ => show win0_2.index ⟨32 * I.val + J.val, h⟩ (1 : Fin 3) * 8 + 1 * a.val = 8 * I.val + a.val; rw [e1]; omega
  | ⟨2, _⟩ => show win0_2.index ⟨32 * I.val + J.val, h⟩ (2 : Fin 3) * 8192 + 1 * b.val = 8192 * J.val + b.val; rw [e2]; omega

/-- Window 3's block at point 32·I + J read off ANY array of the permuted copies' shape, at (r, a, b): the array at plane r,
    row 8·I + a, column 8192·J + b. -/
theorem read3 (A : S5x16x262144.Idx → EReal) (I : Fin 2) (J : Fin 32) (h : 32 * I.val + J.val < cfg0.N)
    (r : Fin 5) (a : Fin 8) (b : Fin 8192) :
    ((cfg0.win 3).blk ⟨32 * I.val + J.val, h⟩).view.read (Elt Ideal) A (ix3 r a b)
      = A (ix3 r ⟨8 * I.val + a.val, tile_row_lt I.isLt a.isLt⟩ ⟨8192 * J.val + b.val, tile_col_lt J.isLt b.isLt⟩) := by
  have e0 : win0_3.index ⟨32 * I.val + J.val, h⟩ (0 : Fin 3) = 0 := (inIndex _).2.2.2.2.2.2.2.1
  have e1 : win0_3.index ⟨32 * I.val + J.val, h⟩ (1 : Fin 3) = (32 * I.val + J.val) / 32 := (inIndex _).2.2.2.2.2.2.2.2.1
  have e2 : win0_3.index ⟨32 * I.val + J.val, h⟩ (2 : Fin 3) = (32 * I.val + J.val) % 32 := (inIndex _).2.2.2.2.2.2.2.2.2
  rw [point_div] at e1
  rw [point_mod] at e2
  rw [View.read_apply]
  show A _ = A _
  refine congrArg A ?_
  funext d
  apply Fin.ext
  match d with
  | ⟨0, _⟩ => show win0_3.index ⟨32 * I.val + J.val, h⟩ (0 : Fin 3) * 5 + 1 * r.val = r.val; rw [e0]; omega
  | ⟨1, _⟩ => show win0_3.index ⟨32 * I.val + J.val, h⟩ (1 : Fin 3) * 8 + 1 * a.val = 8 * I.val + a.val; rw [e1]; omega
  | ⟨2, _⟩ => show win0_3.index ⟨32 * I.val + J.val, h⟩ (2 : Fin 3) * 8192 + 1 * b.val = 8192 * J.val + b.val; rw [e2]; omega

/-- Window 0's block at point 32·I + J, at (a, b): the flattened prediction at row 8·I + a, column 8192·J + b. -/
theorem blk0_apply (c : Dev nD) (I : Fin 2) (J : Fin 32) (h : 32 * I.val + J.val < cfg0.N) (a : Fin 8) (b : Fin 8192) :
    blk0 m c ⟨32 * I.val + J.val, h⟩ (ix2 a b)
      = arrP m c (ix2 ⟨8 * I.val + a.val, tile_row_lt I.isLt a.isLt⟩ ⟨8192 * J.val + b.val, tile_col_lt J.isLt b.isLt⟩) := by
  show iblk m c 0 _ (ix2 a b) = _
  unfold iblk
  exact read0 (V m c (Pipeline.arrRef spec0 0)) I J h a b

/-- Window 1's block at point 32·I + J, at (a, b): the flattened ground truth at row 8·I + a, column 8192·J + b. -/
theorem blk1_apply (c : Dev nD) (I : Fin 2) (J : Fin 32) (h : 32 * I.val + J.val < cfg0.N) (a : Fin 8) (b : Fin 8192) :
    blk1 m c ⟨32 * I.val + J.val, h⟩ (ix2 a b)
      = arrQ m c (ix2 ⟨8 * I.val + a.val, tile_row_lt I.isLt a.isLt⟩ ⟨8192 * J.val + b.val, tile_col_lt J.isLt b.isLt⟩) := by
  show iblk m c 1 _ (ix2 a b) = _
  unfold iblk
  exact read1 (V m c (Pipeline.arrRef spec0 1)) I J h a b

/-- Window 2's block at point 32·I + J, at (r, a, b): plane r of the prediction's permuted copies at row 8·I + a, column 8192·J + b. -/
theorem blk2_apply (c : Dev nD) (I : Fin 2) (J : Fin 32) (h : 32 * I.val + J.val < cfg0.N) (r : Fin 5) (a : Fin 8) (b : Fin 8192) :
    blk2 m c ⟨32 * I.val + J.val, h⟩ (ix3 r a b)
      = arrGP m c (ix3 r ⟨8 * I.val + a.val, tile_row_lt I.isLt a.isLt⟩ ⟨8192 * J.val + b.val, tile_col_lt J.isLt b.isLt⟩) := by
  show iblk m c 2 _ (ix3 r a b) = _
  unfold iblk
  exact read2 (V m c (Pipeline.arrRef spec0 2)) I J h r a b

/-- Window 3's block at point 32·I + J, at (r, a, b): plane r of the ground truth's permuted copies at row 8·I + a, column 8192·J + b. -/
theorem blk3_apply (c : Dev nD) (I : Fin 2) (J : Fin 32) (h : 32 * I.val + J.val < cfg0.N) (r : Fin 5) (a : Fin 8) (b : Fin 8192) :
    blk3 m c ⟨32 * I.val + J.val, h⟩ (ix3 r a b)
      = arrGQ m c (ix3 r ⟨8 * I.val + a.val, tile_row_lt I.isLt a.isLt⟩ ⟨8192 * J.val + b.val, tile_col_lt J.isLt b.isLt⟩) := by
  show iblk m c 3 _ (ix3 r a b) = _
  unfold iblk
  exact read3 (V m c (Pipeline.arrRef spec0 3)) I J h r a b

/-- The tile sum at point 32·I + J over the arrays' positions. -/
theorem tileSum_eq (c : Dev nD) (I : Fin 2) (J : Fin 32) :
    tileSum m c (32 * I.val + J.val)
      = ∑ y : Fin 8, ∑ x : Fin 8192,
          posTerm
            (arrP m c (ix2 ⟨8 * I.val + y.val, tile_row_lt I.isLt y.isLt⟩ ⟨8192 * J.val + x.val, tile_col_lt J.isLt x.isLt⟩))
            (arrQ m c (ix2 ⟨8 * I.val + y.val, tile_row_lt I.isLt y.isLt⟩ ⟨8192 * J.val + x.val, tile_col_lt J.isLt x.isLt⟩))
            (fun r => arrGP m c (ix3 r ⟨8 * I.val + y.val, tile_row_lt I.isLt y.isLt⟩ ⟨8192 * J.val + x.val, tile_col_lt J.isLt x.isLt⟩))
            (fun r => arrGQ m c (ix3 r ⟨8 * I.val + y.val, tile_row_lt I.isLt y.isLt⟩ ⟨8192 * J.val + x.val, tile_col_lt J.isLt x.isLt⟩)) := by
  have hN : cfg0.N = 64 := N_0
  have h : 32 * I.val + J.val < cfg0.N := by
    have := I.isLt; have := J.isLt; omega
  rw [tileSum_of_lt m c _ h, sum_idx2]
  refine Finset.sum_congr rfl fun y _ => Finset.sum_congr rfl fun x _ => ?_
  have e2 : (fun r => blk2 m c ⟨32 * I.val + J.val, h⟩ (ix3 r y x))
      = fun r => arrGP m c (ix3 r ⟨8 * I.val + y.val, tile_row_lt I.isLt y.isLt⟩ ⟨8192 * J.val + x.val, tile_col_lt J.isLt x.isLt⟩) :=
    funext fun r => blk2_apply m c I J h r y x
  have e3 : (fun r => blk3 m c ⟨32 * I.val + J.val, h⟩ (ix3 r y x))
      = fun r => arrGQ m c (ix3 r ⟨8 * I.val + y.val, tile_row_lt I.isLt y.isLt⟩ ⟨8192 * J.val + x.val, tile_col_lt J.isLt x.isLt⟩) :=
    funext fun r => blk3_apply m c I J h r y x
  rw [tileTotals_apply, blk0_apply m c I J h, blk1_apply m c I J h, e2, e3]

end Cert.KernelIdeal.Bridge

end
-- ==== Proof.KernelHost.lean ====
/-
  What the kernel's region finds in its four input arrays, as functions of the program's arguments: the two flattened
  maps, and for each its five permuted copies (each row gathered at its permutation's indices, negative indices wrapped
  by the row length, the fill word where an index still lies outside the row).
-/
import proofs.«121587_j16561393893906_1_alg».proof.Proof.Gen.KernelIdeal.Frame
import Idealize.ShloMosaic.Lib.StableHlo.Run

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- The flattened map: a [16, 1, 512, 512] array read as [16, 262144]. -/
def flat (x : (⟨S16x1x512x512, .f32⟩ : BufTy).Contents (Elt F)) : (⟨S16x262144, .f32⟩ : BufTy).Contents (Elt F) :=
  shapeCast _ (x) shapeCasts_S16x1x512x512_S16x262144

/-- The permutation indices with negative ones wrapped by the row length, as a column of index vectors. -/
def wrapped (idx : (⟨S5x16x262144, .i32⟩ : BufTy).Contents (Elt F)) : (⟨S5x16x262144x1, .i32⟩ : BufTy).Contents (Elt F) :=
  shapeCast _ (select (cmpi .slt (idx) (broadcastInDim S5x16x262144 ![] bcast_S_S5x16x262144 (constantI S_ 32 0#32))) (addi (idx) (broadcastInDim S5x16x262144 ![] bcast_S_S5x16x262144 (constantI S_ 32 262144#32))) (idx)) shapeCasts_S5x16x262144_S5x16x262144x1

/-- Where a wrapped index lies inside a row. -/
def inRow (w : (⟨S5x16x262144x1, .i32⟩ : BufTy).Contents (Elt F)) : (⟨S5x16x262144, .i1⟩ : BufTy).Contents (Elt F) :=
  Host.reduce IntOp.andi (andi (cmpi .sge (w) (broadcastInDim S5x16x262144x1 ![] bcast_S_S5x16x262144x1 (constantI S_ 32 0#32))) (cmpi .sle (w) (broadcastInDim S5x16x262144x1 ![0, 1, 2, 3] bcast_S1x1x1x1_S5x16x262144x1_0_1_2_3 (broadcastInDim S1x1x1x1 ![3] bcast_S1_S1x1x1x1_3 (constantI S1 32 262143#32))))) (constantI S_ 1 1#1) reducesTo_S5x16x262144x1_S5x16x262144_d3 h_S_

/-- The five permuted copies of a flattened map: each row gathered at its permutation's indices, the fill word
    where an index lies outside the row. -/
def gathered (f : (⟨S16x262144, .f32⟩ : BufTy).Contents (Elt F)) (idx : (⟨S5x16x262144, .i32⟩ : BufTy).Contents (Elt F)) :
    (⟨S5x16x262144, .f32⟩ : BufTy).Contents (Elt F) :=
  select (inRow (wrapped idx)) (Host.gather gather_S16x262144_S5x16x262144x1_S5x16x262144_n_1_0_1_1_3_11 (shapeCast _ (broadcastInDim S1x16x262144 ![1, 2] bcast_S16x262144_S1x16x262144_1_2 (f)) shapeCasts_S1x16x262144_S16x262144) (wrapped idx)) (broadcastInDim S5x16x262144 ![] bcast_S_S5x16x262144 (constant S_ .f32 0x7FC00000#32))

variable (m : (ℓ : Loc nD τ sig) → Buf (Elt F) ℓ)

/-- Transport of contents to a typed reference's buffer and back is the identity. -/
theorem ofBuf_toBuf {sig : RefSig} {Val : EltTy → Type} {T : BufTy} (x : StableHlo.TRef sig T) (v : T.Contents Val) :
    x.ofBuf (x.toBuf v) = v := by
  obtain ⟨r, h, hd, hu⟩ := x; subst h; rfl

/-- Transport of a buffer's contents to the typed reference's type and back is the identity. -/
theorem toBuf_ofBuf {sig : RefSig} {Val : EltTy → Type} {T : BufTy} (x : StableHlo.TRef sig T) (v : x.ref.ty.Contents Val) :
    x.toBuf (x.ofBuf v) = v := by
  obtain ⟨r, h, hd, hu⟩ := x; subst h; rfl

/-! Transport along a literal reference's type equation is the identity: one statement per buffer at which a value
    crosses between an operation over typed references and a plain one, the contents a variable. -/

theorem toBuf_main_v3 (p1 p2 p3) (X : (⟨S5x16x262144, .f32⟩ : BufTy).Contents (Elt F)) :
    (TRef.of (T := ⟨S5x16x262144, .f32⟩) main_v3 p1 p2 p3).toBuf (Val := Elt F) X = X := rfl
theorem ofBuf_main_arg2 (p1 p2 p3) (X : (⟨S5x16x262144, .i32⟩ : BufTy).Contents (Elt F)) :
    (TRef.of (T := ⟨S5x16x262144, .i32⟩) main_arg2 p1 p2 p3).ofBuf (Val := Elt F) X = X := rfl
theorem toBuf_main_call0_v4 (p1 p2 p3) (X : (⟨S5x16x262144, .i32⟩ : BufTy).Contents (Elt F)) :
    (TRef.of (T := ⟨S5x16x262144, .i32⟩) main_call0_v4 p1 p2 p3).toBuf (Val := Elt F) X = X := rfl
theorem ofBuf_main_call0_v5 (p1 p2 p3) (X : (⟨S5x16x262144x1, .i32⟩ : BufTy).Contents (Elt F)) :
    (TRef.of (T := ⟨S5x16x262144x1, .i32⟩) main_call0_v5 p1 p2 p3).ofBuf (Val := Elt F) X = X := rfl
theorem ofBuf_main_call0_v6 (p1 p2 p3) (X : (⟨S16x262144, .f32⟩ : BufTy).Contents (Elt F)) :
    (TRef.of (T := ⟨S16x262144, .f32⟩) main_call0_v6 p1 p2 p3).ofBuf (Val := Elt F) X = X := rfl
theorem toBuf_main_v5 (p1 p2 p3) (X : (⟨S5x16x262144, .f32⟩ : BufTy).Contents (Elt F)) :
    (TRef.of (T := ⟨S5x16x262144, .f32⟩) main_v5 p1 p2 p3).toBuf (Val := Elt F) X = X := rfl
theorem toBuf_main_call1_v4 (p1 p2 p3) (X : (⟨S5x16x262144, .i32⟩ : BufTy).Contents (Elt F)) :
    (TRef.of (T := ⟨S5x16x262144, .i32⟩) main_call1_v4 p1 p2 p3).toBuf (Val := Elt F) X = X := rfl
theorem ofBuf_main_call1_v5 (p1 p2 p3) (X : (⟨S5x16x262144x1, .i32⟩ : BufTy).Contents (Elt F)) :
    (TRef.of (T := ⟨S5x16x262144x1, .i32⟩) main_call1_v5 p1 p2 p3).ofBuf (Val := Elt F) X = X := rfl
theorem ofBuf_main_call1_v6 (p1 p2 p3) (X : (⟨S16x262144, .f32⟩ : BufTy).Contents (Elt F)) :
    (TRef.of (T := ⟨S16x262144, .f32⟩) main_call1_v6 p1 p2 p3).ofBuf (Val := Elt F) X = X := rfl

/-- The region finds the flattened prediction in its first array, -/
theorem V_flat_pred (c : Dev nD) : V m c main_v0 = flat (m ((c : Thread nD τ).loc main_arg0)) := by
  dsimp only [Gen.V, Gen.V0]
  simp only [hostOps0, hostOps0_1, hostOps0_2, hostOps0_3, List.flatten_cons, List.flatten_nil, List.append_nil, List.cons_append, List.nil_append]
  after_results
  rfl

/-- the flattened ground truth in its second, -/
theorem V_flat_truth (c : Dev nD) : V m c main_v1 = flat (m ((c : Thread nD τ).loc main_arg1)) := by
  dsimp only [Gen.V, Gen.V0]
  simp only [hostOps0, hostOps0_1, hostOps0_2, hostOps0_3, List.flatten_cons, List.flatten_nil, List.append_nil, List.cons_append, List.nil_append]
  after_results
  rfl

/-- the prediction's five permuted copies in its third, -/
theorem V_gathered_pred (c : Dev nD) :
    V m c main_v3 = gathered (flat (m ((c : Thread nD τ).loc main_arg0))) (m ((c : Thread nD τ).loc main_arg2)) := by
  dsimp only [Gen.V, Gen.V0]
  simp only [hostOps0, hostOps0_1, hostOps0_2, hostOps0_3, List.flatten_cons, List.flatten_nil, List.append_nil, List.cons_append, List.nil_append]
  after_results_simp
  simp only [ofBuf_toBuf, toBuf_ofBuf]
  simp only [toBuf_main_v3, ofBuf_main_arg2, toBuf_main_call0_v4, ofBuf_main_call0_v5, ofBuf_main_call0_v6]
  unfold gathered inRow wrapped flat
  rfl

/-- and the ground truth's in its fourth. -/
theorem V_gathered_truth (c : Dev nD) :
    V m c main_v5 = gathered (flat (m ((c : Thread nD τ).loc main_arg1))) (m ((c : Thread nD τ).loc main_arg2)) := by
  dsimp only [Gen.V, Gen.V0]
  simp only [hostOps0, hostOps0_1, hostOps0_2, hostOps0_3, List.flatten_cons, List.flatten_nil, List.append_nil, List.cons_append, List.nil_append]
  after_results_simp
  simp only [ofBuf_toBuf, toBuf_ofBuf]
  simp only [toBuf_main_v5, ofBuf_main_arg2, toBuf_main_call1_v4, ofBuf_main_call1_v5, ofBuf_main_call1_v6]
  unfold gathered inRow wrapped flat
  rfl

end Cert.KernelIdeal.HostValue

end
-- ==== Proof.RefStages.lean ====
/-
  The reference program as a few stages, each a function of the stage before it.

  The flattened map; the five permuted copies of a flattened map (each row gathered at its permutation's indices,
  negative indices wrapped by the row length, the fill word where an index still lies outside the row); the differences
  of a map to its permuted copies with the permutation axis last; their Euclidean norms over that axis, 1.0 in place of
  a norm equal to 0.0; the differences divided by those norms; and the mean absolute difference of the two normalised
  arrays.  Stated for any float family: at the word level these are the very operations the program applies.
-/
import proofs.«121587_j16561393893906_1_alg».proof.Proof.Gen.ReferenceIdeal

noncomputable section

namespace Cert.ReferenceIdeal.Stage

open Cert.ReferenceIdeal Cert.ReferenceIdeal.Gen Idealize.ShloMosaic

variable {F : FTy → Type} [FloatOps F]
/-- The flattened map: a [16, 1, 512, 512] array read as [16, 262144]. -/
def flat (x : (⟨S16x1x512x512, .f32⟩ : BufTy).Contents (Elt F)) : (⟨S16x262144, .f32⟩ : BufTy).Contents (Elt F) :=
  shapeCast _ (x) shapeCasts_S16x1x512x512_S16x262144

/-- The permutation indices with negative ones wrapped by the row length, as a column of index vectors. -/
def wrapped (idx : (⟨S5x16x262144, .i32⟩ : BufTy).Contents (Elt F)) : (⟨S5x16x262144x1, .i32⟩ : BufTy).Contents (Elt F) :=
  shapeCast _ (select (cmpi .slt (idx) (broadcastInDim S5x16x262144 ![] bcast_S_S5x16x262144 (constantI S_ 32 0#32))) (addi (idx) (broadcastInDim S5x16x262144 ![] bcast_S_S5x16x262144 (constantI S_ 32 262144#32))) (idx)) shapeCasts_S5x16x262144_S5x16x262144x1

/-- Where a wrapped index lies inside a row. -/
def inRow (w : (⟨S5x16x262144x1, .i32⟩ : BufTy).Contents (Elt F)) : (⟨S5x16x262144, .i1⟩ : BufTy).Contents (Elt F) :=
  Host.reduce IntOp.andi (andi (cmpi .sge (w) (broadcastInDim S5x16x262144x1 ![] bcast_S_S5x16x262144x1 (constantI S_ 32 0#32))) (cmpi .sle (w) (broadcastInDim S5x16x262144x1 ![0, 1, 2, 3] bcast_S1x1x1x1_S5x16x262144x1_0_1_2_3 (broadcastInDim S1x1x1x1 ![3] bcast_S1_S1x1x1x1_3 (constantI S1 32 262143#32))))) (constantI S_ 1 1#1) reducesTo_S5x16x262144x1_S5x16x262144_d3 h_S_

/-- The five permuted copies of a flattened map: each row gathered at its permutation's indices, the fill word
    where an index lies outside the row. -/
def gathered (f : (⟨S16x262144, .f32⟩ : BufTy).Contents (Elt F)) (idx : (⟨S5x16x262144, .i32⟩ : BufTy).Contents (Elt F)) :
    (⟨S5x16x262144, .f32⟩ : BufTy).Contents (Elt F) :=
  select (inRow (wrapped idx)) (Host.gather gather_S16x262144_S5x16x262144x1_S5x16x262144_n_1_0_1_1_3_11 (shapeCast _ (broadcastInDim S1x16x262144 ![1, 2] bcast_S16x262144_S1x16x262144_1_2 (f)) shapeCasts_S1x16x262144_S16x262144) (wrapped idx)) (broadcastInDim S5x16x262144 ![] bcast_S_S5x16x262144 (constant S_ .f32 0x7FC00000#32))

/-- The differences of a flattened map to its five permuted copies, the permutation axis last. -/
def diffs (f : (⟨S16x262144, .f32⟩ : BufTy).Contents (Elt F)) (g : (⟨S5x16x262144, .f32⟩ : BufTy).Contents (Elt F)) :
    (⟨S16x262144x5, .f32⟩ : BufTy).Contents (Elt F) :=
  transpose S16x262144x5 [1, 2, 0] (subf (broadcastInDim S5x16x262144 ![0, 1, 2] bcast_S1x16x262144_S5x16x262144_0_1_2 (broadcastInDim S1x16x262144 ![1, 2] bcast_S16x262144_S1x16x262144_1_2 (f))) (g)) transposes_S5x16x262144_S16x262144x5_1_2_0

/-- The Euclidean norm over the permutation axis, kept as a unit axis. -/
def norms (d : (⟨S16x262144x5, .f32⟩ : BufTy).Contents (Elt F)) : (⟨S16x262144x1, .f32⟩ : BufTy).Contents (Elt F) :=
  Host.sqrt (broadcastInDim S16x262144x1 ![0, 1] bcast_S16x262144_S16x262144x1_0_1 (Host.reduceAdd (mulf (d) (d)) (constant S_ .f32 0x00000000#32) reducesTo_S16x262144x5_S16x262144_d2 h_S_))

/-- The norms with 1.0 in place of those that compare equal to 0.0. -/
def guarded (n : (⟨S16x262144x1, .f32⟩ : BufTy).Contents (Elt F)) : (⟨S16x262144x1, .f32⟩ : BufTy).Contents (Elt F) :=
  select (cmpf (F := F) .oeq (n) (broadcastInDim S16x262144x1 ![] bcast_S_S16x262144x1 (constant S_ .f32 0x00000000#32))) (broadcastInDim S16x262144x1 ![] bcast_S_S16x262144x1 (constant S_ .f32 0x3F800000#32)) (n)

/-- The differences divided by their guarded norms. -/
def normalised (d : (⟨S16x262144x5, .f32⟩ : BufTy).Contents (Elt F)) : (⟨S16x262144x5, .f32⟩ : BufTy).Contents (Elt F) :=
  Host.divf (d) (broadcastInDim S16x262144x5 ![0, 1, 2] bcast_S16x262144x1_S16x262144x5_0_1_2 (guarded (norms d)))

/-- The mean absolute difference of two arrays of normalised differences. -/
def meanAbs (p g : (⟨S16x262144x5, .f32⟩ : BufTy).Contents (Elt F)) : (⟨S_, .f32⟩ : BufTy).Contents (Elt F) :=
  Host.divf (Host.reduceAdd (Host.absf (subf (p) (g))) (constant S_ .f32 0x00000000#32) reducesTo_S16x262144x5_S_d0_1_2 h_S_) (constant S_ .f32 0x4BA00000#32)

/-- The reference's result from its three arguments. -/
def result (x0 x1 : (⟨S16x1x512x512, .f32⟩ : BufTy).Contents (Elt F)) (x2 : (⟨S5x16x262144, .i32⟩ : BufTy).Contents (Elt F)) :
    (⟨S_, .f32⟩ : BufTy).Contents (Elt F) :=
  meanAbs (normalised (diffs (flat x0) (gathered (flat x0) x2))) (normalised (diffs (flat x1) (gathered (flat x1) x2)))

end Cert.ReferenceIdeal.Stage

end
-- ==== Proof.RefValue.lean ====
/-
  The reference's result, read: at the exact instance the mean absolute difference of the two normalised arrays is the
  sum over all 16 × 262144 positions of the specification's `posTerm` — of the flattened prediction and ground truth
  at the position and of their five permuted partners there — divided by the word 20971520.0.
-/
import proofs.«121587_j16561393893906_1_alg».proof.Proof.RefStages
import proofs.«121587_j16561393893906_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.ReferenceIdeal.Stage Idealize.ShloMosaic Idealize.ShloMosaic.ValueIdx Cert.RdLoss

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A difference at (b, n, r): the map at (b, n) less its r-th permuted copy there. -/
theorem diffs_apply (P : S16x262144.Idx → EReal) (GP : S5x16x262144.Idx → EReal) (b : Fin 16) (n : Fin 262144) (r : Fin 5) :
    diffs (F := Ideal) P GP (ix3 b n r) = P (ix2 b n) - GP (ix3 r b n) := by
  unfold diffs
  rw [transpose_apply _ _ _ (ix3 b n r) (ix3 r b n)
    (fun a => match a with | ⟨0, _⟩ => rfl | ⟨1, _⟩ => rfl | ⟨2, _⟩ => rfl)]
  rw [subf_apply]
  congr 1
  rw [broadcastInDim_apply _ _ _ (ix3 r b n) (ix3 (0 : Fin 1) b n)
    (fun a => match a with
      | ⟨0, _⟩ => rfl
      | ⟨1, _⟩ => by show _ = if (16 : Nat) = 1 then 0 else _; rw [if_neg (by decide)]; rfl
      | ⟨2, _⟩ => by show _ = if (262144 : Nat) = 1 then 0 else _; rw [if_neg (by decide)]; rfl)]
  rw [broadcastInDim_apply _ _ _ (ix3 (0 : Fin 1) b n) (ix2 b n)
    (fun a => match a with
      | ⟨0, _⟩ => by show _ = if (16 : Nat) = 1 then 0 else _; rw [if_neg (by decide)]; rfl
      | ⟨1, _⟩ => by show _ = if (262144 : Nat) = 1 then 0 else _; rw [if_neg (by decide)]; rfl)]

/-- The host's square root at an index is the ideal square root of the element. -/
theorem hostSqrt_apply {s : Shape} {φ : FTy} (x : FVec Ideal s φ) (i : s.Idx) : Host.sqrt x i = Ideal.sqrt (x i) := rfl

/-- The host's absolute value at an index is the larger of the element and its negation. -/
theorem hostAbsf_apply {s : Shape} {φ : FTy} (x : FVec Ideal s φ) (i : s.Idx) : Host.absf x i = max (x i) (-(x i)) := rfl

/-- The index a reduction over the last axis inserts coordinate k into is (b, n, k). -/
theorem lift_last (h : S16x262144x5.Reduces [2] S16x262144) (b : Fin 16) (n : Fin 262144) (k : Fin 5) :
    h.lift (ix2 b n) k = ix3 b n k := by
  funext a
  match a with
  | ⟨0, _⟩ => exact Fin.ext rfl
  | ⟨1, _⟩ => exact Fin.ext rfl
  | ⟨2, _⟩ => exact Fin.ext rfl

/-- A norm at (b, n): the square root of the zero word plus the sum of the five squares there. -/
theorem norms_apply (d : S16x262144x5.Idx → EReal) (b : Fin 16) (n : Fin 262144) :
    norms (F := Ideal) d (ix3 b n (0 : Fin 1))
      = Ideal.sqrt (Ideal.ofBits .f32 0x00000000#32 + ∑ k : Fin 5, d (ix3 b n k) * d (ix3 b n k)) := by
  unfold norms
  rw [hostSqrt_apply]
  rw [broadcastInDim_apply _ _ _ (ix3 b n (0 : Fin 1)) (ix2 b n)
    (fun a => match a with
      | ⟨0, _⟩ => by show _ = if (16 : Nat) = 1 then 0 else _; rw [if_neg (by decide)]; rfl
      | ⟨1, _⟩ => by show _ = if (262144 : Nat) = 1 then 0 else _; rw [if_neg (by decide)]; rfl)]
  rw [hostReduceAdd_apply,
    Ideal.hostReduceAdd_single _ (by decide : S16x262144x5.Reduces [2] S16x262144)]
  congr 1
  refine congrArg₂ (· + ·) rfl ?_
  refine Finset.sum_congr rfl fun k _ => ?_
  rw [mulf_apply]
  exact congrArg (fun j => d j * d j) (lift_last _ b n k)

/-- A guarded norm: the word 1.0 where the norm compares equal to the word 0.0, else the norm. -/
theorem guarded_apply (x : S16x262144x1.Idx → EReal) (j : S16x262144x1.Idx) :
    guarded (F := Ideal) x j
      = Scalar.select (Ideal.cmp .oeq (x j) (Ideal.ofBits .f32 0x00000000#32)) (Ideal.ofBits .f32 0x3F800000#32) (x j) := by
  unfold guarded
  rw [select_apply, cmpf_apply, broadcastInDim_scalar_apply, broadcastInDim_scalar_apply, constant_apply, constant_apply,
    Ideal.cmpf_def]

/-- A normalised difference at (b, n, r): the difference there over the guarded norm of the five differences at (b, n). -/
theorem normalised_apply (d : S16x262144x5.Idx → EReal) (b : Fin 16) (n : Fin 262144) (r : Fin 5) :
    normalised (F := Ideal) d (ix3 b n r) = Ideal.div (d (ix3 b n r)) (guardedNorm fun k => d (ix3 b n k)) := by
  unfold normalised
  rw [hostDivf_apply, broadcastInDim_apply _ _ _ (ix3 b n r) (ix3 b n (0 : Fin 1))
    (fun a => match a with
      | ⟨0, _⟩ => by show _ = if (16 : Nat) = 1 then 0 else _; rw [if_neg (by decide)]; rfl
      | ⟨1, _⟩ => by show _ = if (262144 : Nat) = 1 then 0 else _; rw [if_neg (by decide)]; rfl
      | ⟨2, _⟩ => by show _ = if (1 : Nat) = 1 then 0 else _; rw [if_pos rfl]; rfl),
    guarded_apply, norms_apply]
  unfold guardedNorm
  rw [Ideal.ofBits_zero_f32, zero_add]

/-- The mean absolute difference: the zero word plus the sum over every index of the absolute difference, over the
    word 20971520.0. -/
theorem meanAbs_apply (p g : S16x262144x5.Idx → EReal) (i : S_.Idx) :
    meanAbs (F := Ideal) p g i
      = Ideal.div (Ideal.ofBits .f32 0x00000000#32 + ∑ j : S16x262144x5.Idx, max (p j - g j) (-(p j - g j)))
          (Ideal.ofBits .f32 0x4BA00000#32) := by
  unfold meanAbs
  rw [hostDivf_apply, hostReduceAdd_apply, Ideal.hostReduceAdd_total _ (fun b => b.elim0), constant_apply, constant_apply]
  refine congrArg (fun s => Ideal.div (Ideal.ofBits .f32 0x00000000#32 + s) (Ideal.ofBits .f32 0x4BA00000#32)) ?_
  refine Finset.sum_congr rfl fun j _ => ?_
  rw [hostAbsf_apply, subf_apply]

/-- The reference's scalar result at the exact instance, from the flattened maps `P`, `Q` and their permuted copies
    `GP`, `GQ`. -/
theorem meanAbs_normalised_apply (P Q : S16x262144.Idx → EReal) (GP GQ : S5x16x262144.Idx → EReal) (i : S_.Idx) :
    meanAbs (F := Ideal) (normalised (F := Ideal) (diffs (F := Ideal) P GP)) (normalised (F := Ideal) (diffs (F := Ideal) Q GQ)) i
      = Ideal.div
          (∑ b : Fin 16, ∑ n : Fin 262144,
            posTerm (P (ix2 b n)) (Q (ix2 b n)) (fun r => GP (ix3 r b n)) (fun r => GQ (ix3 r b n)))
          (Ideal.ofBits .f32 0x4BA00000#32) := by
  rw [meanAbs_apply, Ideal.ofBits_zero_f32, zero_add, sum_idx3]
  refine congrArg (fun s => Ideal.div s (Ideal.ofBits .f32 0x4BA00000#32)) ?_
  refine Finset.sum_congr rfl fun b _ => Finset.sum_congr rfl fun n _ => ?_
  unfold posTerm posTermD
  refine Finset.sum_congr rfl fun r _ => ?_
  rw [normalised_apply, normalised_apply]
  unfold entryTerm
  simp only [diffs_apply]

end Cert.ReferenceIdeal.RefValue

end
-- ==== Proof.Total.lean ====
/-
  The two programs compute one number.

  The kernel program's result buffer ends at the sum of the two tile rows' sums over the word 20971520.0; regrouping the
  16 × 262144 positions into 2 × 32 tiles of 8 × 8192 shows that this is the sum over all positions of the specification's
  term of the arrays the region finds — the two flattened maps and their permuted copies, which the host prefix builds
  from the arguments exactly as the reference does.  The reference's result is the same sum over the same word.  Sums of
  extended reals may be regrouped freely, so no finiteness of the inputs is used.
-/
import proofs.«121587_j16561393893906_1_alg».proof.Defs
import proofs.«121587_j16561393893906_1_alg».proof.Proof.Gen.Kernel.Frame
import proofs.«121587_j16561393893906_1_alg».proof.Proof.Gen.Pre_finite_inputs
import proofs.«121587_j16561393893906_1_alg».proof.Proof.Bridge
import proofs.«121587_j16561393893906_1_alg».proof.Proof.KernelHost
import proofs.«121587_j16561393893906_1_alg».proof.Proof.RefRun
import proofs.«121587_j16561393893906_1_alg».proof.Proof.RefValue

noncomputable section

open scoped BigOperators

open Idealize.ShloMosaic Idealize.ShloMosaic.TcCoe Idealize.SL.Sem Idealize.ShloMosaic.ValueIdx Cert.RdLoss

namespace Cert.KernelIdeal.Total

open Cert.KernelIdeal Cert.KernelIdeal.Gen Cert.KernelIdeal.Acc Cert.KernelIdeal.Bridge

variable (m : (ℓ : Loc nD τ sig) → Buf (Elt Ideal) ℓ) (ρ : Dev nD → PrngReg)

/-- The kernel program's run, read: its result buffer at the tail of the tile rows' sums, the arguments unchanged. -/
theorem run : θ_run (defs (F := Ideal)) (onTc (τ := τ) (main (F := Ideal))) ⟨m, fun _ => 0, ρ⟩ fun r => ∀ c : Dev nD,
      r.2.mem ((c.tc : Thread nD τ).loc main_v8) = tailOf (rowSums m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

/-- The kernel's scalar: the sum over all 16 × 262144 positions of the specification's term of the arrays the region
    finds, over the word 20971520.0 — the tile rows' sums regrouped. -/
theorem scalar_apply (c : Dev nD) (i : S_.Idx) :
    tailOf (rowSums m c) i
      = Ideal.div
          (∑ b : Fin 16, ∑ n : Fin 262144,
            posTerm (arrP m c (ix2 b n)) (arrQ m c (ix2 b n)) (fun r => arrGP m c (ix3 r b n)) (fun r => arrGQ m c (ix3 r b n)))
          (Ideal.ofBits .f32 0x4BA00000#32) := by
  rw [tailOf_apply]
  refine congrArg (fun s => Ideal.div s (Ideal.ofBits .f32 0x4BA00000#32)) ?_
  rw [sum_positions_tiled]
  refine Finset.sum_congr rfl fun I _ => ?_
  show ∑ s ∈ Finset.range 32, tileSum m c (32 * I.val + s) = _
  rw [Finset.sum_range]
  exact Finset.sum_congr rfl fun J _ => tileSum_eq m c I J

end Cert.KernelIdeal.Total

namespace Cert.Proof.Claims

/-- The flattening and the permuted copies are the same functions in the two programs. -/
theorem flat_eq (x : Cert.KernelIdeal.S16x1x512x512.Idx → EReal) :
    Cert.KernelIdeal.HostValue.flat (F := Ideal) x = Cert.ReferenceIdeal.Stage.flat (F := Ideal) x := rfl

theorem gathered_eq (f : Cert.KernelIdeal.S16x262144.Idx → EReal) (idx : (⟨Cert.KernelIdeal.S5x16x262144, .i32⟩ : BufTy).Contents (Elt Ideal)) :
    Cert.KernelIdeal.HostValue.gathered (F := Ideal) f idx = Cert.ReferenceIdeal.Stage.gathered (F := Ideal) f idx := rfl

/-- The kernel program's result is the reference's result of the same arguments. -/
theorem result_eq (m : (ℓ : Loc Cert.KernelIdeal.nD Cert.KernelIdeal.τ Cert.KernelIdeal.sig) → Buf (Elt Ideal) ℓ) (c : Dev Cert.KernelIdeal.nD) :
    Cert.KernelIdeal.Acc.tailOf (Cert.KernelIdeal.Acc.rowSums m c)
      = Cert.ReferenceIdeal.Stage.result (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  funext i
  rw [Cert.KernelIdeal.Total.scalar_apply]
  unfold Cert.ReferenceIdeal.Stage.result
  rw [Cert.ReferenceIdeal.RefValue.meanAbs_normalised_apply]
  have eP : Cert.KernelIdeal.Bridge.arrP m c = Cert.ReferenceIdeal.Stage.flat (F := Ideal) (m ((c.tc : Thread Cert.KernelIdeal.nD Cert.KernelIdeal.τ).loc Cert.KernelIdeal.main_arg0)) :=
    (Cert.KernelIdeal.HostValue.V_flat_pred m c).trans (flat_eq _)
  have eQ : Cert.KernelIdeal.Bridge.arrQ m c = Cert.ReferenceIdeal.Stage.flat (F := Ideal) (m ((c.tc : Thread Cert.KernelIdeal.nD Cert.KernelIdeal.τ).loc Cert.KernelIdeal.main_arg1)) :=
    (Cert.KernelIdeal.HostValue.V_flat_truth m c).trans (flat_eq _)
  have eGP : Cert.KernelIdeal.Bridge.arrGP m c = Cert.ReferenceIdeal.Stage.gathered (F := Ideal)
      (Cert.ReferenceIdeal.Stage.flat (F := Ideal) (m ((c.tc : Thread Cert.KernelIdeal.nD Cert.KernelIdeal.τ).loc Cert.KernelIdeal.main_arg0)))
      (m ((c.tc : Thread Cert.KernelIdeal.nD Cert.KernelIdeal.τ).loc Cert.KernelIdeal.main_arg2)) :=
    (Cert.KernelIdeal.HostValue.V_gathered_pred m c).trans ((gathered_eq _ _).trans (congrArg (fun f => Cert.ReferenceIdeal.Stage.gathered (F := Ideal) f _) (flat_eq _)))
  have eGQ : Cert.KernelIdeal.Bridge.arrGQ m c = Cert.ReferenceIdeal.Stage.gathered (F := Ideal)
      (Cert.ReferenceIdeal.Stage.flat (F := Ideal) (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)) :=
    (Cert.KernelIdeal.HostValue.V_gathered_truth m c).trans ((gathered_eq _ _).trans (congrArg (fun f => Cert.ReferenceIdeal.Stage.gathered (F := Ideal) f _) (flat_eq _)))
  rw [eP, eQ, eGP, eGQ]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote nothing. -/
theorem preserves : Cert.preserves_Kernel_KernelIdeal := trivial

/-- Both programs run, from memories agreeing on the arguments, to the same scalar. -/
theorem algebraic : Cert.algebraic_KernelIdeal_ReferenceIdeal := by
  intro m ρ m' ρ' _ hagree
  refine ⟨fun c => Cert.KernelIdeal.Acc.tailOf (Cert.KernelIdeal.Acc.rowSums m c), Cert.KernelIdeal.Total.run m ρ, ?_⟩
  refine (θ_run Cert.ReferenceIdeal.defs _ _).mono (fun _ h c => ⟨(h c).1.trans ?_, (h c).2⟩)
    (Cert.ReferenceIdeal.RunP.run (F := Ideal) m' ρ')
  rw [(hagree c).1, (hagree c).2.1, (hagree c).2.2]
  exact (result_eq m c).symm

end Cert.Proof.Claims

end
-- ==== Proof.lean ====
/-
  The certificate of a loss over random differences.

  Both programs flatten two maps (prediction and ground truth) to 16 rows of 262144 entries, form for each of five
  permutations the map's permuted copy (each row gathered at the permutation's indices), take at every position the five
  differences to the permuted partners, divide them by their Euclidean norm (1 in place of a zero norm), and average the
  absolute differences of the two maps' normalised entries over all 16 · 262144 · 5 of them.  The reference does it in
  whole-array operations.  The kernel program leaves the flattening and the gathers to the host, exactly as the reference
  does them, and has a grid of 2 × 32 points sum the position terms tile by tile (8 × 8192 positions each) into a one-word
  accumulator per tile row, the host adding the two rows' sums and dividing by the count.

  Read at the exact instance every operation is its textbook one on the extended reals and the two programs apply the
  same ones to each position; what differs is only the grouping of one big sum, and sums of extended reals regroup freely.
  So the two results are equal for all inputs, finite or not.  The kernel's frames are the generated ones; the reference's
  frame is its run with the result dropped; the ideal pass rewrote nothing.
-/
import proofs.«121587_j16561393893906_1_alg».proof.Defs
import proofs.«121587_j16561393893906_1_alg».proof.Proof.Gen.Kernel
import proofs.«121587_j16561393893906_1_alg».proof.Proof.Gen.Kernel.Frame
import proofs.«121587_j16561393893906_1_alg».proof.Proof.Gen.KernelIdeal
import proofs.«121587_j16561393893906_1_alg».proof.Proof.Gen.KernelIdeal.Frame
import proofs.«121587_j16561393893906_1_alg».proof.Proof.Gen.ReferenceIdeal
import proofs.«121587_j16561393893906_1_alg».proof.Proof.Gen.Pre_finite_inputs
import proofs.«121587_j16561393893906_1_alg».proof.Proof.Total
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
